-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x64 .f32) (main_arg18 : FVec F S64 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x64 .f32) (main_arg10 : FVec F S64 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x64 .f32) (main_arg1 : IVec S2x800000 32) (main_arg2 : FVec F S800000x64 .f32) (main_arg3 : FVec F S192x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x64 .f32) (main_arg18 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg3
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S1x64 : Shape := ⟨2, ![1, 64]⟩
abbrev S4000x64 : Shape := ⟨2, ![4000, 64]⟩
abbrev S4000x192 : Shape := ⟨2, ![4000, 192]⟩
abbrev S4000x128 : Shape := ⟨2, ![4000, 128]⟩
abbrev S5000x64 : Shape := ⟨2, ![5000, 64]⟩
abbrev S5000x128 : Shape := ⟨2, ![5000, 128]⟩

abbrev nBuf : Space → Nat
  | .hbm => 55
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S192x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x64, .f32⟩
  | .hbm, ⟨54, _⟩ => ⟨S50000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S192x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  concatenates_S4000x64_S4000x64_S4000x64_S4000x192_d1 : Shape.Concatenates [S4000x64, S4000x64, S4000x64] S4000x192 1
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S4000x192_S192x128_S4000x128_1_0_0_1_n_n_wf : DotDims.WF S4000x192 S192x128 S4000x128 [1] [0] [0] [1] [] []
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  scatter_S50000x64_S800000x1_S800000x64_1_0_0_1_wf : ScatterDims.WF S50000x64 S800000x1 S800000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S800000x64.size a
  hwx0_2 : ∀ i : grid0.Coords, EltTy.bits .f32 = 32 ∨ (Rect.block (s := S800000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .f32 = 32 ∨ (Rect.block (s := S192x128) S192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x64.size a ≤ S800000x64.size a
  hwx0_11 : ∀ i : grid0.Coords, EltTy.bits .f32 = 32 ∨ (Rect.block (s := S800000x64) S4000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S50000x64.size a
  hwx1_10 : ∀ i : grid1.Coords, EltTy.bits .f32 = 32 ∨ (Rect.block (s := S50000x64) S5000x64.size (cc1_transform_10 i) (hinb1_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x192_S192x128_S4000x128_1_0_0_1_n_n : DotDims S4000x192 S192x128 S4000x128 where
  lhsContracting := [1]
  rhsContracting := [0]
  lhsNonContracting := [0]
  rhsNonContracting := [1]
  lhsBatch := []
  rhsBatch := []
  wf := dot_S4000x192_S192x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S4000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S192x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S800000x192, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S800000x64, .f32⟩
  | .hbm, ⟨64, _⟩ => ⟨S1x64, .f32⟩
  | .hbm, ⟨65, _⟩ => ⟨S800000x64, .f32⟩
  | .hbm, ⟨66, _⟩ => ⟨S800000x64, .f32⟩
  | .hbm, ⟨67, _⟩ => ⟨S_, .f32⟩
  | .hbm, ⟨68, _⟩ => ⟨S50000x64, .f32⟩
  | .hbm, ⟨69, _⟩ => ⟨S800000x1, .i32⟩
  | .hbm, ⟨70, _⟩ => ⟨S50000x64, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call2_cst : Ref sig .tc := ⟨.hbm, 60, rfl⟩
abbrev main_call2_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call3_cst : Ref sig .tc := ⟨.hbm, 76, rfl⟩
abbrev main_call3_v0 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call4_cst : Ref sig .tc := ⟨.hbm, 83, rfl⟩
abbrev main_call4_v0 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call5_cst : Ref sig .tc := ⟨.hbm, 90, rfl⟩
abbrev main_call5_v0 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.LibMlpRows.lean ====
/-
  A multi-layer perceptron read row by row, on the extended reals.

  A dense layer acts on each row of its input independently: row p of `X · W + b` is the affine image of row p of `X`.
  So a network of dense layers and rectifiers applied to a block of rows of a matrix computes, on each row, what the same
  network applied to the whole matrix computes on that row. This file states the two layer forms — the vector unit's
  (a matrix product into a zero accumulator, the bias a stored one-row matrix broadcast down the
  rows, the rectifier a maximum with a splat zero) and the host's (`dot_general`, the bias a vector broadcast twice, the
  rectifier a maximum with a broadcast zero constant) — read at an index as ONE row function, `affine` and `relu`; and
  that a concatenation along the feature axis commutes with selecting a row. Generic in all extents.
-/
import Idealize.ShloMosaic.PureOps.Ideal.Laws
import Idealize.ShloMosaic.Lib.ValueIdx
import Idealize.ShloMosaic.Lib.ValueLayout
import Idealize.ShloMosaic.Lib.Pipeline.Value
import proofs.«146145_j12850542150609_1_alg».proof.Proof.LibPlainDot
import proofs.«146145_j12850542150609_1_alg».proof.Proof.LibRowBias

noncomputable section

open scoped BigOperators

namespace Cert.MlpRows

open Idealize.ShloMosaic Idealize.ShloMosaic.ValueIdx

variable {M M' K N C T : Nat}

/-! ## The row functions -/

/-- A dense layer on one row: entry j of `x · W + b`. -/
def affine (x : Fin K → EReal) (W : Fin K → Fin N → EReal) (b : Fin N → EReal) : Fin N → EReal :=
  fun j => (∑ k, x k * W k j) + b j

/-- The rectifier on one row. -/
def relu (y : Fin N → EReal) : Fin N → EReal := fun j => max (y j) 0

/-- Four dense layers with a rectifier after each of the first three. -/
def mlp4 {K0 K1 K2 K3 K4 : Nat} (x : Fin K0 → EReal)
    (W0 : Fin K0 → Fin K1 → EReal) (b0 : Fin K1 → EReal) (W1 : Fin K1 → Fin K2 → EReal) (b1 : Fin K2 → EReal)
    (W2 : Fin K2 → Fin K3 → EReal) (b2 : Fin K3 → EReal) (W3 : Fin K3 → Fin K4 → EReal) (b3 : Fin K4 → EReal) :
    Fin K4 → EReal :=
  affine (relu (affine (relu (affine (relu (affine x W0 b0)) W1 b1)) W2 b2)) W3 b3

/-! ## The vector unit's layer -/

/-- The product into the zero accumulator plus the stored bias row, at (p, q): the affine image of row p. -/
theorem unit_affine {φ₁ φ₂ : FTy} (X : FVec Ideal ⟨2, ![M, K]⟩ φ₁) (W : FVec Ideal ⟨2, ![K, N]⟩ φ₂)
    (b : FVec Ideal ⟨2, ![1, N]⟩ .f32) (prec : Option ContractPrecision)
    (hb : (⟨2, ![1, N]⟩ : Shape).Broadcasts ⟨2, ![M, N]⟩) (p : Fin M) (q : Fin N) :
    addf (matmul (DotDims.plain M K N) prec X W (constant ⟨2, ![M, N]⟩ .f32 0x00000000#32))
        (broadcastTo ⟨2, ![M, N]⟩ b hb) (ix2 p q)
      = affine (fun k => X (ix2 p k)) (fun k j => W (ix2 k j)) (fun j => b (ix2 (0 : Fin 1) j)) q := by
  show FloatOps.addf (FloatOps.matmul (DotDims.plain M K N) prec X W (constant ⟨2, ![M, N]⟩ .f32 0x00000000#32) (ix2 p q))
      (broadcastTo ⟨2, ![M, N]⟩ b hb (ix2 p q)) = _
  rw [Cert.PlainDot.matmul_zero_apply, Cert.RowBias.rows_apply]
  rfl

/-- The maximum with the splat zero word, at an index. -/
theorem unit_relu {s : Shape} (y : FVec Ideal s .f32) (i : s.Idx) :
    maximumf y (broadcast s (FloatOps.ofBits .f32 0x00000000#32)) i = max (y i) 0 := by
  show max (y i) (Ideal.ofBits .f32 0x00000000#32) = _
  rw [Ideal.ofBits_zero_f32]

/-! ## The host's layer -/

/-- `dot_general` plus the bias vector broadcast to a row and down the rows, at (p, q). -/
theorem host_affine {φ₁ φ₂ : FTy} (X : FVec Ideal ⟨2, ![M, K]⟩ φ₁) (W : FVec Ideal ⟨2, ![K, N]⟩ φ₂)
    (b : FVec Ideal ⟨1, ![N]⟩ .f32) (prec : Option ContractPrecision)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (DotDims.plain M K N) prec X W)
        (broadcastInDim ⟨2, ![M, N]⟩ ![0, 1] h2 (broadcastInDim ⟨2, ![1, N]⟩ ![1] h1 b)) (ix2 p q)
      = affine (fun k => X (ix2 p k)) (fun k j => W (ix2 k j)) (fun j => b (ix1 j)) q := by
  show FloatOps.addf (FloatOps.dotGeneral (DotDims.plain M K N) prec .single X W (ix2 p q))
      (broadcastInDim ⟨2, ![M, N]⟩ ![0, 1] h2 (broadcastInDim ⟨2, ![1, N]⟩ ![1] h1 b) (ix2 p q)) = _
  rw [Cert.PlainDot.dotGeneral_apply, Cert.RowBias.hostRows_apply]
  rfl

/-- The maximum with the broadcast zero constant, at an index. -/
theorem host_relu {s : Shape} (y : FVec Ideal s .f32) (h0 : (⟨0, ![]⟩ : Shape).BroadcastsInDim s ![]) (i : s.Idx) :
    maximumf y (broadcastInDim s ![] h0 (constant ⟨0, ![]⟩ .f32 0x00000000#32)) i = max (y i) 0 := by
  show max (y i) (broadcastInDim s ![] h0 (constant ⟨0, ![]⟩ .f32 0x00000000#32) i) = _
  rw [Cert.RowBias.splat_apply]
  show max (y i) (Ideal.ofBits .f32 0x00000000#32) = _
  rw [Ideal.ofBits_zero_f32]

/-- A stored one-row matrix made from a vector by a reshape: its entry (0, j) is the vector's entry j. -/
theorem row_of_vec (b : FVec Ideal ⟨1, ![N]⟩ .f32) (h : (⟨1, ![N]⟩ : Shape).ShapeCasts ⟨2, ![1, N]⟩) (j : Fin N) :
    shapeCast ⟨2, ![1, N]⟩ b h (ix2 (0 : Fin 1) j) = b (ix1 j) := Cert.RowBias.ofVec_apply b h j

/-! ## Concatenation along the feature axis, row by row -/

section Concat
variable {α : Type}

/-- Three pieces of C columns each: a column below C lies in the first piece. -/
theorem cat3_fst (x1 x2 x3 : (⟨2, ![M, C]⟩ : Shape).Idx → α)
    (h : Shape.Concatenates [⟨2, ![M, C]⟩, ⟨2, ![M, C]⟩, ⟨2, ![M, C]⟩] ⟨2, ![M, T]⟩ 1)
    (p : Fin M) (k : Fin T) (hk : k.val < C) :
    concatenate ⟨2, ![M, T]⟩ 1 [⟨⟨2, ![M, C]⟩, x1⟩, ⟨⟨2, ![M, C]⟩, x2⟩, ⟨⟨2, ![M, C]⟩, x3⟩] h (ix2 p k)
      = x1 (ix2 p ⟨k.val, hk⟩) :=
  concatenate_apply_piece 1 [⟨⟨2, ![M, C]⟩, x1⟩, ⟨⟨2, ![M, C]⟩, x2⟩, ⟨⟨2, ![M, C]⟩, x3⟩] h (ix2 p k) 0 (by simp) _ x1 rfl rfl 0 rfl (ix2 p ⟨k.val, hk⟩)
    (fun b hb => by match b with | ⟨0, _⟩ => rfl | ⟨1, _⟩ => exact absurd rfl hb)
    (Nat.zero_add _)

/-- A column in [C, 2C) lies in the second piece. -/
theorem cat3_snd (x1 x2 x3 : (⟨2, ![M, C]⟩ : Shape).Idx → α)
    (h : Shape.Concatenates [⟨2, ![M, C]⟩, ⟨2, ![M, C]⟩, ⟨2, ![M, C]⟩] ⟨2, ![M, T]⟩ 1)
    (p : Fin M) (k : Fin T) (hk1 : C ≤ k.val) (hk2 : k.val - C < C) :
    concatenate ⟨2, ![M, T]⟩ 1 [⟨⟨2, ![M, C]⟩, x1⟩, ⟨⟨2, ![M, C]⟩, x2⟩, ⟨⟨2, ![M, C]⟩, x3⟩] h (ix2 p k)
      = x2 (ix2 p ⟨k.val - C, hk2⟩) :=
  concatenate_apply_piece 1 [⟨⟨2, ![M, C]⟩, x1⟩, ⟨⟨2, ![M, C]⟩, x2⟩, ⟨⟨2, ![M, C]⟩, x3⟩] h (ix2 p k) 1 (by simp) _ x2 rfl rfl C (by simp) (ix2 p ⟨k.val - C, hk2⟩)
    (fun b hb => by match b with | ⟨0, _⟩ => rfl | ⟨1, _⟩ => exact absurd rfl hb)
    (by show C + (k.val - C) = k.val; omega)

/-- A column from 2C on lies in the third piece. -/
theorem cat3_thd (x1 x2 x3 : (⟨2, ![M, C]⟩ : Shape).Idx → α)
    (h : Shape.Concatenates [⟨2, ![M, C]⟩, ⟨2, ![M, C]⟩, ⟨2, ![M, C]⟩] ⟨2, ![M, T]⟩ 1)
    (p : Fin M) (k : Fin T) (hk1 : C + C ≤ k.val) (hk2 : k.val - (C + C) < C) :
    concatenate ⟨2, ![M, T]⟩ 1 [⟨⟨2, ![M, C]⟩, x1⟩, ⟨⟨2, ![M, C]⟩, x2⟩, ⟨⟨2, ![M, C]⟩, x3⟩] h (ix2 p k)
      = x3 (ix2 p ⟨k.val - (C + C), hk2⟩) :=
  concatenate_apply_piece 1 [⟨⟨2, ![M, C]⟩, x1⟩, ⟨⟨2, ![M, C]⟩, x2⟩, ⟨⟨2, ![M, C]⟩, x3⟩] h (ix2 p k) 2 (by simp) _ x3 rfl rfl (C + C) (by simp) (ix2 p ⟨k.val - (C + C), hk2⟩)
    (fun b hb => by match b with | ⟨0, _⟩ => rfl | ⟨1, _⟩ => exact absurd rfl hb)
    (by show C + C + (k.val - (C + C)) = k.val; omega)

/-- The joined width is three times a piece's. -/
theorem cat3_width (h : Shape.Concatenates [⟨2, ![M, C]⟩, ⟨2, ![M, C]⟩, ⟨2, ![M, C]⟩] ⟨2, ![M, T]⟩ 1) : T = C + C + C := by
  have e := h.2.2
  simp at e
  omega

/-- Row p of a three-piece concatenation of blocks is row p' of the concatenation of the arrays the blocks were cut
    from, when each block's row p is its array's row p'. -/
theorem cat3_row_congr (x1 x2 x3 : (⟨2, ![M, C]⟩ : Shape).Idx → α) (y1 y2 y3 : (⟨2, ![M', C]⟩ : Shape).Idx → α)
    (h : Shape.Concatenates [⟨2, ![M, C]⟩, ⟨2, ![M, C]⟩, ⟨2, ![M, C]⟩] ⟨2, ![M, T]⟩ 1)
    (h' : Shape.Concatenates [⟨2, ![M', C]⟩, ⟨2, ![M', C]⟩, ⟨2, ![M', C]⟩] ⟨2, ![M', T]⟩ 1)
    (p : Fin M) (p' : Fin M') (e1 : ∀ k, x1 (ix2 p k) = y1 (ix2 p' k)) (e2 : ∀ k, x2 (ix2 p k) = y2 (ix2 p' k))
    (e3 : ∀ k, x3 (ix2 p k) = y3 (ix2 p' k)) (k : Fin T) :
    concatenate ⟨2, ![M, T]⟩ 1 [⟨⟨2, ![M, C]⟩, x1⟩, ⟨⟨2, ![M, C]⟩, x2⟩, ⟨⟨2, ![M, C]⟩, x3⟩] h (ix2 p k)
      = concatenate ⟨2, ![M', T]⟩ 1 [⟨⟨2, ![M', C]⟩, y1⟩, ⟨⟨2, ![M', C]⟩, y2⟩, ⟨⟨2, ![M', C]⟩, y3⟩] h' (ix2 p' k) := by
  have hT := cat3_width h
  have hkT := k.isLt
  by_cases c1 : k.val < C
  · rw [cat3_fst x1 x2 x3 h p k c1, cat3_fst y1 y2 y3 h' p' k c1]; exact e1 _
  · by_cases c2 : k.val < C + C
    · rw [cat3_snd x1 x2 x3 h p k (by omega) (by omega), cat3_snd y1 y2 y3 h' p' k (by omega) (by omega)]; exact e2 _
    · rw [cat3_thd x1 x2 x3 h p k (by omega) (by omega), cat3_thd y1 y2 y3 h' p' k (by omega) (by omega)]; exact e3 _

/-- The same for two pieces. -/
theorem cat2_row_congr (x1 x2 : (⟨2, ![M, C]⟩ : Shape).Idx → α) (y1 y2 : (⟨2, ![M', C]⟩ : Shape).Idx → α)
    (h : Shape.Concatenates [⟨2, ![M, C]⟩, ⟨2, ![M, C]⟩] ⟨2, ![M, T]⟩ 1)
    (h' : Shape.Concatenates [⟨2, ![M', C]⟩, ⟨2, ![M', C]⟩] ⟨2, ![M', T]⟩ 1)
    (p : Fin M) (p' : Fin M') (e1 : ∀ k, x1 (ix2 p k) = y1 (ix2 p' k)) (e2 : ∀ k, x2 (ix2 p k) = y2 (ix2 p' k))
    (k : Fin T) :
    concatenate ⟨2, ![M, T]⟩ 1 [⟨⟨2, ![M, C]⟩, x1⟩, ⟨⟨2, ![M, C]⟩, x2⟩] h (ix2 p k)
      = concatenate ⟨2, ![M', T]⟩ 1 [⟨⟨2, ![M', C]⟩, y1⟩, ⟨⟨2, ![M', C]⟩, y2⟩] h' (ix2 p' k) := by
  have hT : T = C + C := by have e := h.2.2; simp at e; omega
  have hkT := k.isLt
  by_cases c1 : k.val < C
  · rw [concatenate_pair_apply_left 1 x1 x2 h (ix2 p k) rfl (ix2 p ⟨k.val, c1⟩)
        (fun b => by match b with | ⟨0, _⟩ => rfl | ⟨1, _⟩ => rfl),
      concatenate_pair_apply_left 1 y1 y2 h' (ix2 p' k) rfl (ix2 p' ⟨k.val, c1⟩)
        (fun b => by match b with | ⟨0, _⟩ => rfl | ⟨1, _⟩ => rfl)]
    exact e1 _
  · have c2 : k.val - C < C := by omega
    rw [concatenate_pair_apply_right 1 x1 x2 h (ix2 p k) rfl rfl (ix2 p ⟨k.val - C, c2⟩)
        (fun b hb => by match b with | ⟨0, _⟩ => rfl | ⟨1, _⟩ => exact absurd rfl hb)
        (by show k.val - C + C = k.val; omega),
      concatenate_pair_apply_right 1 y1 y2 h' (ix2 p' k) rfl rfl (ix2 p' ⟨k.val - C, c2⟩)
        (fun b hb => by match b with | ⟨0, _⟩ => rfl | ⟨1, _⟩ => exact absurd rfl hb)
        (by show k.val - C + C = k.val; omega)]
    exact e2 _

end Concat

end Cert.MlpRows

end
-- ==== Proof.EdgeBlock.lean ====
/-
  What one grid point of the edge network's region writes, index by index.

  The body loads three 4000×64 blocks (source-node rows, target-node rows, edge rows), joins them side by side into a
  4000×192 block, and sends it through four dense layers, a rectifier after each of the first three; every change of
  float format is the identity on the extended reals. So entry (p, q) of the stored block is the four-layer row network
  applied to row p of the joined block, read at q.
-/
import proofs.«146145_j12850542150609_1_alg».proof.Proof.Gen.KernelIdeal.Frame
import proofs.«146145_j12850542150609_1_alg».proof.Proof.LibMlpRows

set_option maxRecDepth 16384

noncomputable section

namespace Cert.KernelIdeal.EdgeValue

open Idealize.ShloMosaic Idealize.ShloMosaic.ValueIdx Cert.MlpRows
open Cert.KernelIdeal Cert.KernelIdeal.Gen

theorem hz : (![0, 0] : Fin 2 → Nat) = fun _ => 0 := funext fun a => by fin_cases a <;> rfl

/-- The three printed product records are the plain row-by-column product at their extents. -/
theorem dot0_eq : dot_S4000x192_S192x128_S4000x128_1_0_0_1_n_n = DotDims.plain 4000 192 128 := rfl
theorem dot1_eq : dot_S4000x128_S128x128_S4000x128_1_0_0_1_n_n = DotDims.plain 4000 128 128 := rfl
theorem dot3_eq : dot_S4000x128_S128x64_S4000x64_1_0_0_1_n_n = DotDims.plain 4000 128 64 := rfl

/-- Entry (p, q) of the block the body stores: the edge network of row p of the joined input blocks. -/
theorem block_apply (x0 x1 x2 : Vec Ideal S4000x64 .f32) (x3 : Vec Ideal S192x128 .f32) (x4 : Vec Ideal S1x128 .f32)
    (x5 : Vec Ideal S128x128 .f32) (x6 : Vec Ideal S1x128 .f32) (x7 : Vec Ideal S128x128 .f32) (x8 : Vec Ideal S1x128 .f32)
    (x9 : Vec Ideal S128x64 .f32) (x10 : Vec Ideal S1x64 .f32) (p : Fin 4000) (q : Fin 64) :
    out0_11 (F := Ideal) x0 x1 x2 x3 x4 x5 x6 x7 x8 x9 x10 (ix2 p q)
      = mlp4 (fun k => concatenate S4000x192 1 [⟨S4000x64, x0⟩, ⟨S4000x64, x1⟩, ⟨S4000x64, x2⟩]
            concatenates_S4000x64_S4000x64_S4000x64_S4000x192_d1 (ix2 p k))
          (fun k j => x3 (ix2 k j)) (fun j => x4 (ix2 (0 : Fin 1) j))
          (fun k j => x5 (ix2 k j)) (fun j => x6 (ix2 (0 : Fin 1) j))
          (fun k j => x7 (ix2 k j)) (fun j => x8 (ix2 (0 : Fin 1) j))
          (fun k j => x9 (ix2 k j)) (fun j => x10 (ix2 (0 : Fin 1) j)) q := by
  unfold out0_11
  rw [View.canon_unit_zero hz]
  simp only [View.ld_unit_zero (S := S4000x64) hz, View.ld_unit_zero (S := S192x128) hz, View.ld_unit_zero (S := S1x128) hz,
    View.ld_unit_zero (S := S128x128) hz, View.ld_unit_zero (S := S128x64) hz, View.ld_unit_zero (S := S1x64) hz]
  unfold k0_pay1 k0_pay2 k0_pay3
  simp only [dot0_eq, dot1_eq, dot3_eq, shapeCast_self]
  rw [shapeCast_self x0, shapeCast_self x1]
  simp only [unit_affine, ValueIdx.truncf_apply, unit_relu]
  rfl

end Cert.KernelIdeal.EdgeValue

end
-- ==== Proof.Spec.lean ====
/-
  What the two programs compute, as whole-array functions built from the row functions.

  An edge's result row is the four-layer network applied to the concatenation of three 64-wide rows (the source node's
  features, the target node's features, the edge's own features); a node's result row is a second four-layer network
  applied to the concatenation of the node's features and the sum of the edge results scattered onto it. Both are
  stated here over the arrays the rows are taken from, index by index; the weight matrices and bias vectors enter as
  plain functions of their coordinates, so that a bias stored as a vector and a bias stored as a one-row matrix give the
  same statement.
-/
import proofs.«146145_j12850542150609_1_alg».proof.Proof.LibMlpRows

noncomputable section

namespace Cert.Spec

open Idealize.ShloMosaic Idealize.ShloMosaic.ValueIdx Cert.MlpRows

/-- The edge results: row e is the edge network of (A0 row e ‖ A1 row e ‖ A2 row e). -/
def edgeArr (A0 A1 A2 : (⟨2, ![800000, 64]⟩ : Shape).Idx → EReal)
    (hcat : Shape.Concatenates [⟨2, ![800000, 64]⟩, ⟨2, ![800000, 64]⟩, ⟨2, ![800000, 64]⟩] ⟨2, ![800000, 192]⟩ 1)
    (W0 : Fin 192 → Fin 128 → EReal) (b0 : Fin 128 → EReal) (W1 : Fin 128 → Fin 128 → EReal) (b1 : Fin 128 → EReal)
    (W2 : Fin 128 → Fin 128 → EReal) (b2 : Fin 128 → EReal) (W3 : Fin 128 → Fin 64 → EReal) (b3 : Fin 64 → EReal) :
    (⟨2, ![800000, 64]⟩ : Shape).Idx → EReal :=
  fun i => mlp4
    (fun k => concatenate ⟨2, ![800000, 192]⟩ 1
      [⟨⟨2, ![800000, 64]⟩, A0⟩, ⟨⟨2, ![800000, 64]⟩, A1⟩, ⟨⟨2, ![800000, 64]⟩, A2⟩] hcat
      (ix2 (⟨(i 0).val, idx2_lt0 i⟩ : Fin 800000) k))
    W0 b0 W1 b1 W2 b2 W3 b3 (⟨(i 1).val, idx2_lt1 i⟩ : Fin 64)

theorem edgeArr_apply (A0 A1 A2 : (⟨2, ![800000, 64]⟩ : Shape).Idx → EReal)
    (hcat : Shape.Concatenates [⟨2, ![800000, 64]⟩, ⟨2, ![800000, 64]⟩, ⟨2, ![800000, 64]⟩] ⟨2, ![800000, 192]⟩ 1)
    (W0 : Fin 192 → Fin 128 → EReal) (b0 : Fin 128 → EReal) (W1 : Fin 128 → Fin 128 → EReal) (b1 : Fin 128 → EReal)
    (W2 : Fin 128 → Fin 128 → EReal) (b2 : Fin 128 → EReal) (W3 : Fin 128 → Fin 64 → EReal) (b3 : Fin 64 → EReal)
    (e : Fin 800000) (q : Fin 64) :
    edgeArr A0 A1 A2 hcat W0 b0 W1 b1 W2 b2 W3 b3 (ix2 e q)
      = mlp4 (fun k => concatenate ⟨2, ![800000, 192]⟩ 1
          [⟨⟨2, ![800000, 64]⟩, A0⟩, ⟨⟨2, ![800000, 64]⟩, A1⟩, ⟨⟨2, ![800000, 64]⟩, A2⟩] hcat (ix2 e k))
        W0 b0 W1 b1 W2 b2 W3 b3 q := rfl

/-- The node results: row n is the node network of (H row n ‖ Msg row n). -/
def nodeArr (H Msg : (⟨2, ![50000, 64]⟩ : Shape).Idx → EReal)
    (hcat : Shape.Concatenates [⟨2, ![50000, 64]⟩, ⟨2, ![50000, 64]⟩] ⟨2, ![50000, 128]⟩ 1)
    (W0 : Fin 128 → Fin 128 → EReal) (b0 : Fin 128 → EReal) (W1 : Fin 128 → Fin 128 → EReal) (b1 : Fin 128 → EReal)
    (W2 : Fin 128 → Fin 128 → EReal) (b2 : Fin 128 → EReal) (W3 : Fin 128 → Fin 64 → EReal) (b3 : Fin 64 → EReal) :
    (⟨2, ![50000, 64]⟩ : Shape).Idx → EReal :=
  fun i => mlp4
    (fun k => concatenate ⟨2, ![50000, 128]⟩ 1 [⟨⟨2, ![50000, 64]⟩, H⟩, ⟨⟨2, ![50000, 64]⟩, Msg⟩] hcat
      (ix2 (⟨(i 0).val, idx2_lt0 i⟩ : Fin 50000) k))
    W0 b0 W1 b1 W2 b2 W3 b3 (⟨(i 1).val, idx2_lt1 i⟩ : Fin 64)

theorem nodeArr_apply (H Msg : (⟨2, ![50000, 64]⟩ : Shape).Idx → EReal)
    (hcat : Shape.Concatenates [⟨2, ![50000, 64]⟩, ⟨2, ![50000, 64]⟩] ⟨2, ![50000, 128]⟩ 1)
    (W0 : Fin 128 → Fin 128 → EReal) (b0 : Fin 128 → EReal) (W1 : Fin 128 → Fin 128 → EReal) (b1 : Fin 128 → EReal)
    (W2 : Fin 128 → Fin 128 → EReal) (b2 : Fin 128 → EReal) (W3 : Fin 128 → Fin 64 → EReal) (b3 : Fin 64 → EReal)
    (n : Fin 50000) (q : Fin 64) :
    nodeArr H Msg hcat W0 b0 W1 b1 W2 b2 W3 b3 (ix2 n q)
      = mlp4 (fun k => concatenate ⟨2, ![50000, 128]⟩ 1 [⟨⟨2, ![50000, 64]⟩, H⟩, ⟨⟨2, ![50000, 64]⟩, Msg⟩] hcat (ix2 n k))
        W0 b0 W1 b1 W2 b2 W3 b3 q := rfl

end Cert.Spec

end
-- ==== Proof.EdgeArray.lean ====
/-
  The edge network's region, block by block, fills the whole edge-result array.

  Grid point t handles rows 4000·t … 4000·t + 3999: it reads those rows of the three row-indexed inputs and all of
  every weight matrix and bias row, and writes those rows of the result. Row p of what it writes is the edge network of
  row p of the joined blocks, which is row 4000·t + p of the joined arrays; the 200 blocks tile the 800000 rows. So
  after the region the result array is `edgeArr` of the arrays the region was entered with.
-/
import proofs.«146145_j12850542150609_1_alg».proof.Proof.EdgeBlock
import proofs.«146145_j12850542150609_1_alg».proof.Proof.Spec

set_option maxRecDepth 16384

noncomputable section

namespace Cert.KernelIdeal.EdgeValue

open Idealize.ShloMosaic Idealize.ShloMosaic.TcCoe Idealize.ShloMosaic.ValueIdx Idealize.SL.Sem Cert.MlpRows Cert.Spec
open Cert.KernelIdeal Cert.KernelIdeal.Gen

variable (V : (c : Dev nD) → (b : Ref sig .tc) → Buf (Elt Ideal) ((c : Thread nD τ).loc b))

theorem hcatE : Shape.Concatenates [⟨2, ![800000, 64]⟩, ⟨2, ![800000, 64]⟩, ⟨2, ![800000, 64]⟩] ⟨2, ![800000, 192]⟩ 1 := by
  decide

/-- The printed index maps over the grid: the three row inputs and the output move down the rows with the point, the
    weights and biases stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

theorem point_lt (t : Fin cfg0.N) : t.val < 200 := t.isLt

/-- The array row that row p of point t's blocks is. -/
def rowOf (t : Fin cfg0.N) (p : Fin 4000) : Fin 800000 :=
  ⟨t.val * 4000 + p.val, by have := point_lt t; have := p.isLt; omega⟩

/-! ## The input blocks, read where the output's rows say -/

theorem blk0_apply (c : Dev nD) (t : Fin cfg0.N) (p : Fin 4000) (k : Fin 64) :
    iblk0 V c 0 t (ix2 p k) = V c main_v10 (ix2 (rowOf t p) k) := by
  show V c main_v10 (((cfg0.win 0).blk t).view.emb (ix2 p k)) = V c main_v10 (ix2 (rowOf t p) k)
  refine congrArg _ (funext fun a => Fin.ext ?_)
  obtain ⟨e0, e1, -⟩ := idx_facts t
  match a with
  | ⟨0, _⟩ => show win0_0.index t (0 : Fin 2) * 4000 + 1 * p.val = t.val * 4000 + p.val; rw [e0]; omega
  | ⟨1, _⟩ => show win0_0.index t (1 : Fin 2) * 64 + 1 * k.val = k.val; rw [e1]; omega

theorem blk1_apply (c : Dev nD) (t : Fin cfg0.N) (p : Fin 4000) (k : Fin 64) :
    iblk0 V c 1 t (ix2 p k) = V c main_v17 (ix2 (rowOf t p) k) := by
  show V c main_v17 (((cfg0.win 1).blk t).view.emb (ix2 p k)) = V c main_v17 (ix2 (rowOf t p) k)
  refine congrArg _ (funext fun a => Fin.ext ?_)
  obtain ⟨-, -, e0, e1, -⟩ := idx_facts t
  match a with
  | ⟨0, _⟩ => show win0_1.index t (0 : Fin 2) * 4000 + 1 * p.val = t.val * 4000 + p.val; rw [e0]; omega
  | ⟨1, _⟩ => show win0_1.index t (1 : Fin 2) * 64 + 1 * k.val = k.val; rw [e1]; omega

theorem blk2_apply (c : Dev nD) (t : Fin cfg0.N) (p : Fin 4000) (k : Fin 64) :
    iblk0 V c 2 t (ix2 p k) = V c main_arg2 (ix2 (rowOf t p) k) := by
  show V c main_arg2 (((cfg0.win 2).blk t).view.emb (ix2 p k)) = V c main_arg2 (ix2 (rowOf t p) k)
  refine congrArg _ (funext fun a => Fin.ext ?_)
  obtain ⟨-, -, -, -, e0, e1, -⟩ := idx_facts t
  match a with
  | ⟨0, _⟩ => show win0_2.index t (0 : Fin 2) * 4000 + 1 * p.val = t.val * 4000 + p.val; rw [e0]; omega
  | ⟨1, _⟩ => show win0_2.index t (1 : Fin 2) * 64 + 1 * k.val = k.val; rw [e1]; omega

theorem blk3_apply (c : Dev nD) (t : Fin cfg0.N) (k : Fin 192) (j : Fin 128) :
    iblk0 V c 3 t (ix2 k j) = V c main_arg3 (ix2 k j) := by
  show V c main_arg3 (((cfg0.win 3).blk t).view.emb (ix2 k j)) = V c main_arg3 (ix2 k j)
  refine congrArg _ (funext fun a => Fin.ext ?_)
  obtain ⟨-, -, -, -, -, -, e0, e1, -⟩ := idx_facts t
  match a with
  | ⟨0, _⟩ => show win0_3.index t (0 : Fin 2) * 192 + 1 * k.val = k.val; rw [e0]; omega
  | ⟨1, _⟩ => show win0_3.index t (1 : Fin 2) * 128 + 1 * j.val = j.val; rw [e1]; omega

theorem blk4_apply (c : Dev nD) (t : Fin cfg0.N) (j : Fin 128) :
    iblk0 V c 4 t (ix2 (0 : Fin 1) j) = V c main_v18 (ix2 (0 : Fin 1) j) := by
  show V c main_v18 (((cfg0.win 4).blk t).view.emb (ix2 (0 : Fin 1) j)) = V c main_v18 (ix2 (0 : Fin 1) j)
  refine congrArg _ (funext fun a => Fin.ext ?_)
  obtain ⟨-, -, -, -, -, -, -, -, e0, e1, -⟩ := idx_facts t
  match a with
  | ⟨0, _⟩ => show win0_4.index t (0 : Fin 2) * 1 + 1 * 0 = 0; rw [e0]
  | ⟨1, _⟩ => show win0_4.index t (1 : Fin 2) * 128 + 1 * j.val = j.val; rw [e1]; omega

theorem blk5_apply (c : Dev nD) (t : Fin cfg0.N) (k : Fin 128) (j : Fin 128) :
    iblk0 V c 5 t (ix2 k j) = V c main_arg5 (ix2 k j) := by
  show V c main_arg5 (((cfg0.win 5).blk t).view.emb (ix2 k j)) = V c main_arg5 (ix2 k j)
  refine congrArg _ (funext fun a => Fin.ext ?_)
  obtain ⟨-, -, -, -, -, -, -, -, -, -, e0, e1, -⟩ := idx_facts t
  match a with
  | ⟨0, _⟩ => show win0_5.index t (0 : Fin 2) * 128 + 1 * k.val = k.val; rw [e0]; omega
  | ⟨1, _⟩ => show win0_5.index t (1 : Fin 2) * 128 + 1 * j.val = j.val; rw [e1]; omega

theorem blk6_apply (c : Dev nD) (t : Fin cfg0.N) (j : Fin 128) :
    iblk0 V c 6 t (ix2 (0 : Fin 1) j) = V c main_v19 (ix2 (0 : Fin 1) j) := by
  show V c main_v19 (((cfg0.win 6).blk t).view.emb (ix2 (0 : Fin 1) j)) = V c main_v19 (ix2 (0 : Fin 1) j)
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * 0 = 0; rw [e0]
  | ⟨1, _⟩ => show win0_6.index t (1 : Fin 2) * 128 + 1 * j.val = j.val; rw [e1]; omega

theorem blk7_apply (c : Dev nD) (t : Fin cfg0.N) (k : Fin 128) (j : Fin 128) :
    iblk0 V c 7 t (ix2 k j) = V c main_arg7 (ix2 k j) := by
  show V c main_arg7 (((cfg0.win 7).blk t).view.emb (ix2 k j)) = V c main_arg7 (ix2 k j)
  refine congrArg _ (funext fun a => Fin.ext ?_)
  obtain ⟨-, -, -, -, -, -, -, -, -, -, -, -, -, -, e0, e1, -⟩ := idx_facts t
  match a with
  | ⟨0, _⟩ => show win0_7.index t (0 : Fin 2) * 128 + 1 * k.val = k.val; rw [e0]; omega
  | ⟨1, _⟩ => show win0_7.index t (1 : Fin 2) * 128 + 1 * j.val = j.val; rw [e1]; omega

theorem blk8_apply (c : Dev nD) (t : Fin cfg0.N) (j : Fin 128) :
    iblk0 V c 8 t (ix2 (0 : Fin 1) j) = V c main_v20 (ix2 (0 : Fin 1) j) := by
  show V c main_v20 (((cfg0.win 8).blk t).view.emb (ix2 (0 : Fin 1) j)) = V c main_v20 (ix2 (0 : Fin 1) j)
  refine congrArg _ (funext fun a => Fin.ext ?_)
  obtain ⟨-, -, -, -, -, -, -, -, -, -, -, -, -, -, -, -, e0, e1, -⟩ := idx_facts t
  match a with
  | ⟨0, _⟩ => show win0_8.index t (0 : Fin 2) * 1 + 1 * 0 = 0; rw [e0]
  | ⟨1, _⟩ => show win0_8.index t (1 : Fin 2) * 128 + 1 * j.val = j.val; rw [e1]; omega

theorem blk9_apply (c : Dev nD) (t : Fin cfg0.N) (k : Fin 128) (j : Fin 64) :
    iblk0 V c 9 t (ix2 k j) = V c main_arg9 (ix2 k j) := by
  show V c main_arg9 (((cfg0.win 9).blk t).view.emb (ix2 k j)) = V c main_arg9 (ix2 k j)
  refine congrArg _ (funext fun a => Fin.ext ?_)
  obtain ⟨-, -, -, -, -, -, -, -, -, -, -, -, -, -, -, -, -, -, e0, e1, -⟩ := idx_facts t
  match a with
  | ⟨0, _⟩ => show win0_9.index t (0 : Fin 2) * 128 + 1 * k.val = k.val; rw [e0]; omega
  | ⟨1, _⟩ => show win0_9.index t (1 : Fin 2) * 64 + 1 * j.val = j.val; rw [e1]; omega

theorem blk10_apply (c : Dev nD) (t : Fin cfg0.N) (j : Fin 64) :
    iblk0 V c 10 t (ix2 (0 : Fin 1) j) = V c main_v21 (ix2 (0 : Fin 1) j) := by
  show V c main_v21 (((cfg0.win 10).blk t).view.emb (ix2 (0 : Fin 1) j)) = V c main_v21 (ix2 (0 : Fin 1) j)
  refine congrArg _ (funext fun a => Fin.ext ?_)
  obtain ⟨-, -, -, -, -, -, -, -, -, -, -, -, -, -, -, -, -, -, -, -, e0, e1, -⟩ := idx_facts t
  match a with
  | ⟨0, _⟩ => show win0_10.index t (0 : Fin 2) * 1 + 1 * 0 = 0; rw [e0]
  | ⟨1, _⟩ => show win0_10.index t (1 : Fin 2) * 64 + 1 * j.val = j.val; rw [e1]; omega

/-- Where entry (p, q) of point t's output block lies in the result array. -/
theorem emb11 (t : Fin cfg0.N) (p : Fin 4000) (q : Fin 64) :
    ((cfg0.win 11).blk t).view.emb (ix2 p q) = ix2 (rowOf t p) q := by
  refine funext fun a => Fin.ext ?_
  obtain ⟨-, -, -, -, -, -, -, -, -, -, -, -, -, -, -, -, -, -, -, -, -, -, e0, e1⟩ := idx_facts t
  match a with
  | ⟨0, _⟩ => show win0_11.index t (0 : Fin 2) * 4000 + 1 * p.val = t.val * 4000 + p.val; rw [e0]; omega
  | ⟨1, _⟩ => show win0_11.index t (1 : Fin 2) * 64 + 1 * q.val = q.val; rw [e1]; omega

/-! ## What a point writes back, and the whole array -/

/-- The edge results from the arrays the region is entered with. -/
abbrev edgeOf (c : Dev nD) : (⟨2, ![800000, 64]⟩ : Shape).Idx → EReal :=
  edgeArr (V c main_v10) (V c main_v17) (V c main_arg2) hcatE
    (fun k j => V c main_arg3 (ix2 k j)) (fun j => V c main_v18 (ix2 (0 : Fin 1) j))
    (fun k j => V c main_arg5 (ix2 k j)) (fun j => V c main_v19 (ix2 (0 : Fin 1) j))
    (fun k j => V c main_arg7 (ix2 k j)) (fun j => V c main_v20 (ix2 (0 : Fin 1) j))
    (fun k j => V c main_arg9 (ix2 k j)) (fun j => V c main_v21 (ix2 (0 : Fin 1) j))

/-- Point t writes back block t of the edge results. -/
theorem flushed_eq (c : Dev nD) (t : Fin cfg0.N) :
    (dat0 V c).flushed 11 t = ((cfg0.win 11).blk t).view.read (Elt Ideal) (edgeOf V c) := by
  show (cfg0.win 11).cut (grid0.coords t) ((dat0 V c).after 11 t) = _
  rw [after0_11]
  funext y
  obtain ⟨p, q, rfl⟩ : ∃ (p : Fin 4000) (q : Fin 64), y = ix2 p q := ⟨y 0, y 1, eq_ix2 y⟩
  show out0_11 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (ix2 p q)
    = edgeOf V c (((cfg0.win 11).blk t).view.emb (ix2 p q))
  rw [emb11 t p q, block_apply (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) p q]
  show _ = mlp4 _ _ _ _ _ _ _ _ _ q
  have hx : (fun k => concatenate S4000x192 1 [⟨S4000x64, iblk0 V c 0 t⟩, ⟨S4000x64, iblk0 V c 1 t⟩, ⟨S4000x64, iblk0 V c 2 t⟩]
        concatenates_S4000x64_S4000x64_S4000x64_S4000x192_d1 (ix2 p k))
      = fun k => concatenate ⟨2, ![800000, 192]⟩ 1
          [⟨⟨2, ![800000, 64]⟩, V c main_v10⟩, ⟨⟨2, ![800000, 64]⟩, V c main_v17⟩, ⟨⟨2, ![800000, 64]⟩, V c main_arg2⟩] hcatE
          (ix2 (rowOf t p) k) :=
    funext fun k => cat3_row_congr (iblk0 V c 0 t) (iblk0 V c 1 t) (iblk0 V c 2 t) (V c main_v10) (V c main_v17) (V c main_arg2)
      concatenates_S4000x64_S4000x64_S4000x64_S4000x192_d1 hcatE p (rowOf t p)
      (blk0_apply V c t p) (blk1_apply V c t p) (blk2_apply V c t p) k
  rw [hx]
  simp only [blk3_apply V c t, blk4_apply V c t, blk5_apply V c t, blk6_apply V c t, blk7_apply V c t, blk8_apply V c t,
    blk9_apply V c t, blk10_apply V c t]

/-- An index of the result array is in point t's block iff each coordinate is in the block's range on its axis. -/
theorem mem_blk (t : Fin cfg0.N) (i : S800000x64.Idx) :
    i ∈ ((cfg0.win 11).blk t).view.set ↔ ∀ a : Fin 2, win0_11.index t a * S4000x64.size a ≤ (i a).val
      ∧ (i a).val < win0_11.index t a * S4000x64.size a + S4000x64.size a := by
  show i ∈ ((View.whole main_v22).slice (win0_11.rect t)).set ↔ _
  rw [View.set_slice_whole, Rect.mem_set_unit]
  exact Iff.rfl

/-- Every row lies in the block of the point that is the row number divided by 4000. -/
theorem cover (i : S800000x64.Idx) :
    ∃ t : Fin cfg0.N, (cfg0.win 11).flush t = true ∧ i ∈ ((cfg0.win 11).blk t).view.set := by
  have hi0 : (i 0).val < 800000 := (i 0).isLt
  have hi1 : (i 1).val < 64 := (i 1).isLt
  have ht : (i 0).val / 4000 < 200 := by omega
  refine ⟨⟨(i 0).val / 4000, ht⟩, flush0_11 _, ?_⟩
  rw [mem_blk]
  obtain ⟨-, -, -, -, -, -, -, -, -, -, -, -, -, -, -, -, -, -, -, -, -, -, e0, e1⟩ := idx_facts ⟨(i 0).val / 4000, ht⟩
  intro a
  match a with
  | ⟨0, _⟩ =>
    show win0_11.index ⟨(i 0).val / 4000, ht⟩ (0 : Fin 2) * 4000 ≤ (i 0).val
      ∧ (i 0).val < win0_11.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_11.index ⟨(i 0).val / 4000, ht⟩ (1 : Fin 2) * 64 ≤ (i 1).val
      ∧ (i 1).val < win0_11.index ⟨(i 0).val / 4000, ht⟩ (1 : Fin 2) * 64 + 64
    rw [e1]; omega

/-- After the region the result array holds the edge results of the arrays the region was entered with. -/
theorem final (c : Dev nD) : (dat0 V c).arrAt 11 cfg0.N = edgeOf V c :=
  (dat0 V c).arrAt_eq_of_cover 11 (edgeOf V c) (fun t _ => flushed_eq V c t) cover

end Cert.KernelIdeal.EdgeValue

end
-- ==== Proof.NodeBlock.lean ====
/-
  What one grid point of the node network's region writes, index by index.

  The body loads a 5000×64 block of node features and the matching 5000×64 block of summed messages, joins them side by
  side into a 5000×128 block, and sends it through four dense layers, a rectifier after each of the first three; every
  change of float format is the identity on the extended reals. So entry (p, q) of the stored block is the four-layer
  row network applied to row p of the joined block, read at q.
-/
import proofs.«146145_j12850542150609_1_alg».proof.Proof.Gen.KernelIdeal.Frame
import proofs.«146145_j12850542150609_1_alg».proof.Proof.LibMlpRows

set_option maxRecDepth 16384

noncomputable section

namespace Cert.KernelIdeal.NodeValue

open Idealize.ShloMosaic Idealize.ShloMosaic.ValueIdx Cert.MlpRows
open Cert.KernelIdeal Cert.KernelIdeal.Gen

theorem hz : (![0, 0] : Fin 2 → Nat) = fun _ => 0 := funext fun a => by fin_cases a <;> rfl

/-- The two printed product records are the plain row-by-column product at their extents. -/
theorem dot0_eq : dot_S5000x128_S128x128_S5000x128_1_0_0_1_n_n = DotDims.plain 5000 128 128 := rfl
theorem dot3_eq : dot_S5000x128_S128x64_S5000x64_1_0_0_1_n_n = DotDims.plain 5000 128 64 := rfl

/-- Entry (p, q) of the block the body stores: the node network of row p of the joined input blocks. -/
theorem block_apply (x0 x1 : Vec Ideal S5000x64 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (x8 : Vec Ideal S128x64 .f32) (x9 : Vec Ideal S1x64 .f32) (p : Fin 5000) (q : Fin 64) :
    out1_10 (F := Ideal) x0 x1 x2 x3 x4 x5 x6 x7 x8 x9 (ix2 p q)
      = mlp4 (fun k => concatenate S5000x128 1 [⟨S5000x64, x0⟩, ⟨S5000x64, x1⟩]
            concatenates_S5000x64_S5000x64_S5000x128_d1 (ix2 p k))
          (fun k j => x2 (ix2 k j)) (fun j => x3 (ix2 (0 : Fin 1) j))
          (fun k j => x4 (ix2 k j)) (fun j => x5 (ix2 (0 : Fin 1) j))
          (fun k j => x6 (ix2 k j)) (fun j => x7 (ix2 (0 : Fin 1) j))
          (fun k j => x8 (ix2 k j)) (fun j => x9 (ix2 (0 : Fin 1) j)) q := by
  unfold out1_10
  rw [View.canon_unit_zero hz]
  simp only [View.ld_unit_zero (S := S5000x64) hz, View.ld_unit_zero (S := S1x128) hz,
    View.ld_unit_zero (S := S128x128) hz, View.ld_unit_zero (S := S128x64) hz, View.ld_unit_zero (S := S1x64) hz]
  unfold k1_pay1 k1_pay2
  simp only [dot0_eq, dot3_eq, shapeCast_self]
  rw [shapeCast_self x1]
  simp only [unit_affine, ValueIdx.truncf_apply, unit_relu]
  rfl

end Cert.KernelIdeal.NodeValue

end
-- ==== Proof.NodeArray.lean ====
/-
  The node network's region, block by block, fills the whole node-result array.

  Grid point t handles rows 5000·t … 5000·t + 4999: it reads those rows of the node features and of the summed
  messages and all of every weight matrix and bias row, and writes those rows of the result. Row p of what it writes is
  the node network of row p of the joined blocks, which is row 5000·t + p of the joined arrays; the 10 blocks tile the
  50000 rows. So after the region the result array is `nodeArr` of the arrays the region was entered with.
-/
import proofs.«146145_j12850542150609_1_alg».proof.Proof.NodeBlock
import proofs.«146145_j12850542150609_1_alg».proof.Proof.Spec

set_option maxRecDepth 16384

noncomputable section

namespace Cert.KernelIdeal.NodeValue

open Idealize.ShloMosaic Idealize.ShloMosaic.TcCoe Idealize.ShloMosaic.ValueIdx Idealize.SL.Sem Cert.MlpRows Cert.Spec
open Cert.KernelIdeal Cert.KernelIdeal.Gen

variable (V : (c : Dev nD) → (b : Ref sig .tc) → Buf (Elt Ideal) ((c : Thread nD τ).loc b))

theorem hcatN : Shape.Concatenates [⟨2, ![50000, 64]⟩, ⟨2, ![50000, 64]⟩] ⟨2, ![50000, 128]⟩ 1 := by
  decide

/-- The printed index maps over the grid: the two row inputs and the output move down the rows with the point, the
    weights and biases stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

theorem point_lt (t : Fin cfg1.N) : t.val < 10 := t.isLt

/-- The array row that row p of point t's blocks is. -/
def rowOf (t : Fin cfg1.N) (p : Fin 5000) : Fin 50000 :=
  ⟨t.val * 5000 + p.val, by have := point_lt t; have := p.isLt; omega⟩

/-! ## The input blocks, read where the output's rows say -/

theorem blk0_apply (c : Dev nD) (t : Fin cfg1.N) (p : Fin 5000) (k : Fin 64) :
    iblk1 V c 0 t (ix2 p k) = V c main_arg0 (ix2 (rowOf t p) k) := by
  show V c main_arg0 (((cfg1.win 0).blk t).view.emb (ix2 p k)) = V c main_arg0 (ix2 (rowOf t p) k)
  refine congrArg _ (funext fun a => Fin.ext ?_)
  obtain ⟨e0, e1, -⟩ := idx_facts t
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem blk1_apply (c : Dev nD) (t : Fin cfg1.N) (p : Fin 5000) (k : Fin 64) :
    iblk1 V c 1 t (ix2 p k) = V c main_v25 (ix2 (rowOf t p) k) := by
  show V c main_v25 (((cfg1.win 1).blk t).view.emb (ix2 p k)) = V c main_v25 (ix2 (rowOf t p) k)
  refine congrArg _ (funext fun a => Fin.ext ?_)
  obtain ⟨-, -, e0, e1, -⟩ := idx_facts t
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

theorem blk2_apply (c : Dev nD) (t : Fin cfg1.N) (k : Fin 128) (j : Fin 128) :
    iblk1 V c 2 t (ix2 k j) = V c main_arg11 (ix2 k j) := by
  show V c main_arg11 (((cfg1.win 2).blk t).view.emb (ix2 k j)) = V c main_arg11 (ix2 k j)
  refine congrArg _ (funext fun a => Fin.ext ?_)
  obtain ⟨-, -, -, -, e0, e1, -⟩ := idx_facts t
  match a with
  | ⟨0, _⟩ => show win1_2.index t (0 : Fin 2) * 128 + 1 * k.val = k.val; rw [e0]; omega
  | ⟨1, _⟩ => show win1_2.index t (1 : Fin 2) * 128 + 1 * j.val = j.val; rw [e1]; omega

theorem blk3_apply (c : Dev nD) (t : Fin cfg1.N) (j : Fin 128) :
    iblk1 V c 3 t (ix2 (0 : Fin 1) j) = V c main_v26 (ix2 (0 : Fin 1) j) := by
  show V c main_v26 (((cfg1.win 3).blk t).view.emb (ix2 (0 : Fin 1) j)) = V c main_v26 (ix2 (0 : Fin 1) j)
  refine congrArg _ (funext fun a => Fin.ext ?_)
  obtain ⟨-, -, -, -, -, -, e0, e1, -⟩ := idx_facts t
  match a with
  | ⟨0, _⟩ => show win1_3.index t (0 : Fin 2) * 1 + 1 * 0 = 0; rw [e0]
  | ⟨1, _⟩ => show win1_3.index t (1 : Fin 2) * 128 + 1 * j.val = j.val; rw [e1]; omega

theorem blk4_apply (c : Dev nD) (t : Fin cfg1.N) (k : Fin 128) (j : Fin 128) :
    iblk1 V c 4 t (ix2 k j) = V c main_arg13 (ix2 k j) := by
  show V c main_arg13 (((cfg1.win 4).blk t).view.emb (ix2 k j)) = V c main_arg13 (ix2 k j)
  refine congrArg _ (funext fun a => Fin.ext ?_)
  obtain ⟨-, -, -, -, -, -, -, -, e0, e1, -⟩ := idx_facts t
  match a with
  | ⟨0, _⟩ => show win1_4.index t (0 : Fin 2) * 128 + 1 * k.val = k.val; rw [e0]; omega
  | ⟨1, _⟩ => show win1_4.index t (1 : Fin 2) * 128 + 1 * j.val = j.val; rw [e1]; omega

theorem blk5_apply (c : Dev nD) (t : Fin cfg1.N) (j : Fin 128) :
    iblk1 V c 5 t (ix2 (0 : Fin 1) j) = V c main_v27 (ix2 (0 : Fin 1) j) := by
  show V c main_v27 (((cfg1.win 5).blk t).view.emb (ix2 (0 : Fin 1) j)) = V c main_v27 (ix2 (0 : Fin 1) j)
  refine congrArg _ (funext fun a => Fin.ext ?_)
  obtain ⟨-, -, -, -, -, -, -, -, -, -, e0, e1, -⟩ := idx_facts t
  match a with
  | ⟨0, _⟩ => show win1_5.index t (0 : Fin 2) * 1 + 1 * 0 = 0; rw [e0]
  | ⟨1, _⟩ => show win1_5.index t (1 : Fin 2) * 128 + 1 * j.val = j.val; rw [e1]; omega

theorem blk6_apply (c : Dev nD) (t : Fin cfg1.N) (k : Fin 128) (j : Fin 128) :
    iblk1 V c 6 t (ix2 k j) = V c main_arg15 (ix2 k j) := by
  show V c main_arg15 (((cfg1.win 6).blk t).view.emb (ix2 k j)) = V c main_arg15 (ix2 k j)
  refine congrArg _ (funext fun a => Fin.ext ?_)
  obtain ⟨-, -, -, -, -, -, -, -, -, -, -, -, e0, e1, -⟩ := idx_facts t
  match a with
  | ⟨0, _⟩ => show win1_6.index t (0 : Fin 2) * 128 + 1 * k.val = k.val; rw [e0]; omega
  | ⟨1, _⟩ => show win1_6.index t (1 : Fin 2) * 128 + 1 * j.val = j.val; rw [e1]; omega

theorem blk7_apply (c : Dev nD) (t : Fin cfg1.N) (j : Fin 128) :
    iblk1 V c 7 t (ix2 (0 : Fin 1) j) = V c main_v28 (ix2 (0 : Fin 1) j) := by
  show V c main_v28 (((cfg1.win 7).blk t).view.emb (ix2 (0 : Fin 1) j)) = V c main_v28 (ix2 (0 : Fin 1) j)
  refine congrArg _ (funext fun a => Fin.ext ?_)
  obtain ⟨-, -, -, -, -, -, -, -, -, -, -, -, -, -, e0, e1, -⟩ := idx_facts t
  match a with
  | ⟨0, _⟩ => show win1_7.index t (0 : Fin 2) * 1 + 1 * 0 = 0; rw [e0]
  | ⟨1, _⟩ => show win1_7.index t (1 : Fin 2) * 128 + 1 * j.val = j.val; rw [e1]; omega

theorem blk8_apply (c : Dev nD) (t : Fin cfg1.N) (k : Fin 128) (j : Fin 64) :
    iblk1 V c 8 t (ix2 k j) = V c main_arg17 (ix2 k j) := by
  show V c main_arg17 (((cfg1.win 8).blk t).view.emb (ix2 k j)) = V c main_arg17 (ix2 k j)
  refine congrArg _ (funext fun a => Fin.ext ?_)
  obtain ⟨-, -, -, -, -, -, -, -, -, -, -, -, -, -, -, -, e0, e1, -⟩ := idx_facts t
  match a with
  | ⟨0, _⟩ => show win1_8.index t (0 : Fin 2) * 128 + 1 * k.val = k.val; rw [e0]; omega
  | ⟨1, _⟩ => show win1_8.index t (1 : Fin 2) * 64 + 1 * j.val = j.val; rw [e1]; omega

theorem blk9_apply (c : Dev nD) (t : Fin cfg1.N) (j : Fin 64) :
    iblk1 V c 9 t (ix2 (0 : Fin 1) j) = V c main_v29 (ix2 (0 : Fin 1) j) := by
  show V c main_v29 (((cfg1.win 9).blk t).view.emb (ix2 (0 : Fin 1) j)) = V c main_v29 (ix2 (0 : Fin 1) j)
  refine congrArg _ (funext fun a => Fin.ext ?_)
  obtain ⟨-, -, -, -, -, -, -, -, -, -, -, -, -, -, -, -, -, -, e0, e1, -⟩ := idx_facts t
  match a with
  | ⟨0, _⟩ => show win1_9.index t (0 : Fin 2) * 1 + 1 * 0 = 0; rw [e0]
  | ⟨1, _⟩ => show win1_9.index t (1 : Fin 2) * 64 + 1 * j.val = j.val; rw [e1]; omega

/-- Where entry (p, q) of point t's output block lies in the result array. -/
theorem emb10 (t : Fin cfg1.N) (p : Fin 5000) (q : Fin 64) :
    ((cfg1.win 10).blk t).view.emb (ix2 p q) = ix2 (rowOf t p) q := by
  refine funext fun a => Fin.ext ?_
  obtain ⟨-, -, -, -, -, -, -, -, -, -, -, -, -, -, -, -, -, -, -, -, e0, e1⟩ := idx_facts t
  match a with
  | ⟨0, _⟩ => show win1_10.index t (0 : Fin 2) * 5000 + 1 * p.val = t.val * 5000 + p.val; rw [e0]; omega
  | ⟨1, _⟩ => show win1_10.index t (1 : Fin 2) * 64 + 1 * q.val = q.val; rw [e1]; omega

/-! ## What a point writes back, and the whole array -/

/-- The node results from the arrays the region is entered with. -/
abbrev nodeOf (c : Dev nD) : (⟨2, ![50000, 64]⟩ : Shape).Idx → EReal :=
  nodeArr (V c main_arg0) (V c main_v25) hcatN
    (fun k j => V c main_arg11 (ix2 k j)) (fun j => V c main_v26 (ix2 (0 : Fin 1) j))
    (fun k j => V c main_arg13 (ix2 k j)) (fun j => V c main_v27 (ix2 (0 : Fin 1) j))
    (fun k j => V c main_arg15 (ix2 k j)) (fun j => V c main_v28 (ix2 (0 : Fin 1) j))
    (fun k j => V c main_arg17 (ix2 k j)) (fun j => V c main_v29 (ix2 (0 : Fin 1) j))

/-- Point t writes back block t of the node results. -/
theorem flushed_eq (c : Dev nD) (t : Fin cfg1.N) :
    (dat1 V c).flushed 10 t = ((cfg1.win 10).blk t).view.read (Elt Ideal) (nodeOf V c) := by
  show (cfg1.win 10).cut (grid1.coords t) ((dat1 V c).after 10 t) = _
  rw [after1_10]
  funext y
  obtain ⟨p, q, rfl⟩ : ∃ (p : Fin 5000) (q : Fin 64), y = ix2 p q := ⟨y 0, y 1, eq_ix2 y⟩
  show out1_10 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (ix2 p q)
    = nodeOf V c (((cfg1.win 10).blk t).view.emb (ix2 p q))
  rw [emb10 t p q, block_apply (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) p q]
  show _ = mlp4 _ _ _ _ _ _ _ _ _ q
  have hx : (fun k => concatenate S5000x128 1 [⟨S5000x64, iblk1 V c 0 t⟩, ⟨S5000x64, iblk1 V c 1 t⟩]
        concatenates_S5000x64_S5000x64_S5000x128_d1 (ix2 p k))
      = fun k => concatenate ⟨2, ![50000, 128]⟩ 1
          [⟨⟨2, ![50000, 64]⟩, V c main_arg0⟩, ⟨⟨2, ![50000, 64]⟩, V c main_v25⟩] hcatN (ix2 (rowOf t p) k) :=
    funext fun k => cat2_row_congr (iblk1 V c 0 t) (iblk1 V c 1 t) (V c main_arg0) (V c main_v25)
      concatenates_S5000x64_S5000x64_S5000x128_d1 hcatN p (rowOf t p) (blk0_apply V c t p) (blk1_apply V c t p) k
  rw [hx]
  simp only [blk2_apply V c t, blk3_apply V c t, blk4_apply V c t, blk5_apply V c t, blk6_apply V c t, blk7_apply V c t,
    blk8_apply V c t, blk9_apply V c t]

/-- An index of the result array is in point t's block iff each coordinate is in the block's range on its axis. -/
theorem mem_blk (t : Fin cfg1.N) (i : S50000x64.Idx) :
    i ∈ ((cfg1.win 10).blk t).view.set ↔ ∀ a : Fin 2, win1_10.index t a * S5000x64.size a ≤ (i a).val
      ∧ (i a).val < win1_10.index t a * S5000x64.size a + S5000x64.size a := by
  show i ∈ ((View.whole main_v30).slice (win1_10.rect t)).set ↔ _
  rw [View.set_slice_whole, Rect.mem_set_unit]
  exact Iff.rfl

/-- Every row lies in the block of the point that is the row number divided by 5000. -/
theorem cover (i : S50000x64.Idx) :
    ∃ t : Fin cfg1.N, (cfg1.win 10).flush t = true ∧ i ∈ ((cfg1.win 10).blk t).view.set := by
  have hi0 : (i 0).val < 50000 := (i 0).isLt
  have hi1 : (i 1).val < 64 := (i 1).isLt
  have ht : (i 0).val / 5000 < 10 := by omega
  refine ⟨⟨(i 0).val / 5000, ht⟩, flush1_10 _, ?_⟩
  rw [mem_blk]
  obtain ⟨-, -, -, -, -, -, -, -, -, -, -, -, -, -, -, -, -, -, -, -, e0, e1⟩ := idx_facts ⟨(i 0).val / 5000, ht⟩
  intro a
  match a with
  | ⟨0, _⟩ =>
    show win1_10.index ⟨(i 0).val / 5000, ht⟩ (0 : Fin 2) * 5000 ≤ (i 0).val
      ∧ (i 0).val < win1_10.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_10.index ⟨(i 0).val / 5000, ht⟩ (1 : Fin 2) * 64 ≤ (i 1).val
      ∧ (i 1).val < win1_10.index ⟨(i 0).val / 5000, ht⟩ (1 : Fin 2) * 64 + 64
    rw [e1]; omega

/-- After the region the result array holds the node results of the arrays the region was entered with. -/
theorem final (c : Dev nD) : (dat1 V c).arrAt 10 cfg1.N = nodeOf V c :=
  (dat1 V c).arrAt_eq_of_cover 10 (nodeOf V c) (fun t _ => flushed_eq V c t) cover

end Cert.KernelIdeal.NodeValue

end
-- ==== Proof.HostStretch.lean ====
import proofs.«146145_j12850542150609_1_alg».proof.Proof.Gen.KernelIdeal.Frame
import proofs.«146145_j12850542150609_1_alg».proof.Proof.Gen.ReferenceIdeal.Read
import Idealize.ShloMosaic.Lib.StableHlo.Run

/-!
# What the two stretches of host operations leave for the two kernel regions

The program is: a first stretch of host operations (the two rows of the edge list are sliced out and
flattened, negative indices are wrapped by adding the number of nodes, the node features are gathered at
either row, four bias vectors are reshaped to one-row matrices); the edge network; a second stretch (a zero
array, the second row of the edge list as a column, the edge network's result scatter-added into the zero
array, four more bias reshapes); the node network.

The buffer contents at each boundary are a fold from the launch memory. This file reads that fold at every
buffer a region takes in, as a closed term of the launch contents `m` of the arguments. The terms for the
index chain, the two gathers, the zero array and the scatter's index column are the same chain of pure
operations the reference applies, so they are stated with the reference's own names for them: both
programs then carry one and the same term, which nothing downstream has to open.

The edge network's result is kept as the fold's value at its buffer: it is a whole region's work, described
elsewhere, and no proof here looks inside it.
-/

set_option maxRecDepth 16384

noncomputable section

namespace Cert.KernelIdeal.HostValue

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-! ## The first stretch

Each buffer is read through the fold of the first stretch over the launch contents: an operation's own
result buffer holds its function of its operands' contents, every other buffer what it held before. -/

/-- The features gathered at the first row of the edge list (negative indices wrapped). -/
theorem V1_v10 (c : Dev nD) :
    V1 m ρ c main_v10 = Cert.ReferenceIdeal.Read.val_main_v10 (F := Ideal) (m ((c : Thread nD τ).loc main_arg0)) (m ((c : Thread nD τ).loc main_arg1)) := by
  show StableHlo.after hostOps0 (W0 m ρ c) (Proc.devRef .tc main_v10) = _
  after_results_simp
  rfl

/-- The features gathered at the second row of the edge list (negative indices wrapped). -/
theorem V1_v17 (c : Dev nD) :
    V1 m ρ c main_v17 = Cert.ReferenceIdeal.Read.val_main_v17 (F := Ideal) (m ((c : Thread nD τ).loc main_arg0)) (m ((c : Thread nD τ).loc main_arg1)) := by
  show StableHlo.after hostOps0 (W0 m ρ c) (Proc.devRef .tc main_v17) = _
  after_results_simp
  rfl

/-- The second row of the edge list, flattened: the first stretch's value that the second stretch reads. -/
theorem W1_v3 (c : Dev nD) :
    W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-! No operation of the first stretch writes an argument: it holds its launch contents. -/

theorem W1_arg0 (c : Dev nD) : W1 m ρ c (Proc.devRef .tc main_arg0) = (m ((c : Thread nD τ).loc main_arg0)) := by
  show StableHlo.after hostOps0 (W0 m ρ c) (Proc.devRef .tc main_arg0) = _
  after_results

theorem W1_arg1 (c : Dev nD) : W1 m ρ c (Proc.devRef .tc main_arg1) = (m ((c : Thread nD τ).loc main_arg1)) := by
  show StableHlo.after hostOps0 (W0 m ρ c) (Proc.devRef .tc main_arg1) = _
  after_results

theorem W1_arg2 (c : Dev nD) : W1 m ρ c (Proc.devRef .tc main_arg2) = (m ((c : Thread nD τ).loc main_arg2)) := by
  show StableHlo.after hostOps0 (W0 m ρ c) (Proc.devRef .tc main_arg2) = _
  after_results

theorem W1_arg3 (c : Dev nD) : W1 m ρ c (Proc.devRef .tc main_arg3) = (m ((c : Thread nD τ).loc main_arg3)) := by
  show StableHlo.after hostOps0 (W0 m ρ c) (Proc.devRef .tc main_arg3) = _
  after_results

theorem W1_arg5 (c : Dev nD) : W1 m ρ c (Proc.devRef .tc main_arg5) = (m ((c : Thread nD τ).loc main_arg5)) := by
  show StableHlo.after hostOps0 (W0 m ρ c) (Proc.devRef .tc main_arg5) = _
  after_results

theorem W1_arg7 (c : Dev nD) : W1 m ρ c (Proc.devRef .tc main_arg7) = (m ((c : Thread nD τ).loc main_arg7)) := by
  show StableHlo.after hostOps0 (W0 m ρ c) (Proc.devRef .tc main_arg7) = _
  after_results

theorem W1_arg9 (c : Dev nD) : W1 m ρ c (Proc.devRef .tc main_arg9) = (m ((c : Thread nD τ).loc main_arg9)) := by
  show StableHlo.after hostOps0 (W0 m ρ c) (Proc.devRef .tc main_arg9) = _
  after_results

theorem W1_arg11 (c : Dev nD) : W1 m ρ c (Proc.devRef .tc main_arg11) = (m ((c : Thread nD τ).loc main_arg11)) := by
  show StableHlo.after hostOps0 (W0 m ρ c) (Proc.devRef .tc main_arg11) = _
  after_results

theorem W1_arg12 (c : Dev nD) : W1 m ρ c (Proc.devRef .tc main_arg12) = (m ((c : Thread nD τ).loc main_arg12)) := by
  show StableHlo.after hostOps0 (W0 m ρ c) (Proc.devRef .tc main_arg12) = _
  after_results

theorem W1_arg13 (c : Dev nD) : W1 m ρ c (Proc.devRef .tc main_arg13) = (m ((c : Thread nD τ).loc main_arg13)) := by
  show StableHlo.after hostOps0 (W0 m ρ c) (Proc.devRef .tc main_arg13) = _
  after_results

theorem W1_arg14 (c : Dev nD) : W1 m ρ c (Proc.devRef .tc main_arg14) = (m ((c : Thread nD τ).loc main_arg14)) := by
  show StableHlo.after hostOps0 (W0 m ρ c) (Proc.devRef .tc main_arg14) = _
  after_results

theorem W1_arg15 (c : Dev nD) : W1 m ρ c (Proc.devRef .tc main_arg15) = (m ((c : Thread nD τ).loc main_arg15)) := by
  show StableHlo.after hostOps0 (W0 m ρ c) (Proc.devRef .tc main_arg15) = _
  after_results

theorem W1_arg16 (c : Dev nD) : W1 m ρ c (Proc.devRef .tc main_arg16) = (m ((c : Thread nD τ).loc main_arg16)) := by
  show StableHlo.after hostOps0 (W0 m ρ c) (Proc.devRef .tc main_arg16) = _
  after_results

theorem W1_arg17 (c : Dev nD) : W1 m ρ c (Proc.devRef .tc main_arg17) = (m ((c : Thread nD τ).loc main_arg17)) := by
  show StableHlo.after hostOps0 (W0 m ρ c) (Proc.devRef .tc main_arg17) = _
  after_results

theorem W1_arg18 (c : Dev nD) : W1 m ρ c (Proc.devRef .tc main_arg18) = (m ((c : Thread nD τ).loc main_arg18)) := by
  show StableHlo.after hostOps0 (W0 m ρ c) (Proc.devRef .tc main_arg18) = _
  after_results

theorem V1_arg2 (c : Dev nD) : V1 m ρ c main_arg2 = (m ((c : Thread nD τ).loc main_arg2)) := W1_arg2 m ρ c

theorem V1_arg3 (c : Dev nD) : V1 m ρ c main_arg3 = (m ((c : Thread nD τ).loc main_arg3)) := W1_arg3 m ρ c

theorem V1_arg5 (c : Dev nD) : V1 m ρ c main_arg5 = (m ((c : Thread nD τ).loc main_arg5)) := W1_arg5 m ρ c

theorem V1_arg7 (c : Dev nD) : V1 m ρ c main_arg7 = (m ((c : Thread nD τ).loc main_arg7)) := W1_arg7 m ρ c

theorem V1_arg9 (c : Dev nD) : V1 m ρ c main_arg9 = (m ((c : Thread nD τ).loc main_arg9)) := W1_arg9 m ρ c

/-! A bias vector of length `n` reshaped to a `1 × n` matrix. -/

theorem V1_v18 (c : Dev nD) :
    V1 m ρ c main_v18 = shapeCast S1x128 (m ((c : Thread nD τ).loc main_arg4)) shapeCasts_S128_S1x128 := by
  show StableHlo.after hostOps0 (W0 m ρ c) (Proc.devRef .tc main_v18) = _
  after_results
  rfl

theorem V1_v19 (c : Dev nD) :
    V1 m ρ c main_v19 = shapeCast S1x128 (m ((c : Thread nD τ).loc main_arg6)) shapeCasts_S128_S1x128 := by
  show StableHlo.after hostOps0 (W0 m ρ c) (Proc.devRef .tc main_v19) = _
  after_results
  rfl

theorem V1_v20 (c : Dev nD) :
    V1 m ρ c main_v20 = shapeCast S1x128 (m ((c : Thread nD τ).loc main_arg8)) shapeCasts_S128_S1x128 := by
  show StableHlo.after hostOps0 (W0 m ρ c) (Proc.devRef .tc main_v20) = _
  after_results
  rfl

theorem V1_v21 (c : Dev nD) :
    V1 m ρ c main_v21 = shapeCast S1x64 (m ((c : Thread nD τ).loc main_arg10)) shapeCasts_S64_S1x64 := by
  show StableHlo.after hostOps0 (W0 m ρ c) (Proc.devRef .tc main_v21) = _
  after_results
  rfl

/-! ## Across the edge network

The edge network's arrays are the two gathers, its weights and reshaped biases, and its result. Every other
buffer leaves the region as it entered it. -/

/-- The flattened second row of the edge list is no array of the edge network. -/
theorem W2_v3 (c : Dev nD) :
    W2 m ρ c (Proc.devRef .tc main_v3) = Cert.ReferenceIdeal.Read.val_main_v3 (F := Ideal) (m ((c : Thread nD τ).loc main_arg1)) :=
  (W2_of_ne m ρ c main_v3 (by decide)).trans (W1_v3 m ρ c)

theorem W2_arg0 (c : Dev nD) : W2 m ρ c (Proc.devRef .tc main_arg0) = (m ((c : Thread nD τ).loc main_arg0)) :=
  (W2_of_ne m ρ c main_arg0 (by decide)).trans (W1_arg0 m ρ c)

theorem W2_arg11 (c : Dev nD) : W2 m ρ c (Proc.devRef .tc main_arg11) = (m ((c : Thread nD τ).loc main_arg11)) :=
  (W2_of_ne m ρ c main_arg11 (by decide)).trans (W1_arg11 m ρ c)

theorem W2_arg12 (c : Dev nD) : W2 m ρ c (Proc.devRef .tc main_arg12) = (m ((c : Thread nD τ).loc main_arg12)) :=
  (W2_of_ne m ρ c main_arg12 (by decide)).trans (W1_arg12 m ρ c)

theorem W2_arg13 (c : Dev nD) : W2 m ρ c (Proc.devRef .tc main_arg13) = (m ((c : Thread nD τ).loc main_arg13)) :=
  (W2_of_ne m ρ c main_arg13 (by decide)).trans (W1_arg13 m ρ c)

theorem W2_arg14 (c : Dev nD) : W2 m ρ c (Proc.devRef .tc main_arg14) = (m ((c : Thread nD τ).loc main_arg14)) :=
  (W2_of_ne m ρ c main_arg14 (by decide)).trans (W1_arg14 m ρ c)

theorem W2_arg15 (c : Dev nD) : W2 m ρ c (Proc.devRef .tc main_arg15) = (m ((c : Thread nD τ).loc main_arg15)) :=
  (W2_of_ne m ρ c main_arg15 (by decide)).trans (W1_arg15 m ρ c)

theorem W2_arg16 (c : Dev nD) : W2 m ρ c (Proc.devRef .tc main_arg16) = (m ((c : Thread nD τ).loc main_arg16)) :=
  (W2_of_ne m ρ c main_arg16 (by decide)).trans (W1_arg16 m ρ c)

theorem W2_arg17 (c : Dev nD) : W2 m ρ c (Proc.devRef .tc main_arg17) = (m ((c : Thread nD τ).loc main_arg17)) :=
  (W2_of_ne m ρ c main_arg17 (by decide)).trans (W1_arg17 m ρ c)

theorem W2_arg18 (c : Dev nD) : W2 m ρ c (Proc.devRef .tc main_arg18) = (m ((c : Thread nD τ).loc main_arg18)) :=
  (W2_of_ne m ρ c main_arg18 (by decide)).trans (W1_arg18 m ρ c)

/-! ## The second stretch

The fold of the second stretch over the contents the edge network leaves. -/

theorem V3_arg0 (c : Dev nD) : V3 m ρ c main_arg0 = (m ((c : Thread nD τ).loc main_arg0)) := by
  show StableHlo.after hostOps1 (W2 m ρ c) (Proc.devRef .tc main_arg0) = _
  after_results
  exact W2_arg0 m ρ c

theorem V3_arg11 (c : Dev nD) : V3 m ρ c main_arg11 = (m ((c : Thread nD τ).loc main_arg11)) := by
  show StableHlo.after hostOps1 (W2 m ρ c) (Proc.devRef .tc main_arg11) = _
  after_results
  exact W2_arg11 m ρ c

theorem V3_arg13 (c : Dev nD) : V3 m ρ c main_arg13 = (m ((c : Thread nD τ).loc main_arg13)) := by
  show StableHlo.after hostOps1 (W2 m ρ c) (Proc.devRef .tc main_arg13) = _
  after_results
  exact W2_arg13 m ρ c

theorem V3_arg15 (c : Dev nD) : V3 m ρ c main_arg15 = (m ((c : Thread nD τ).loc main_arg15)) := by
  show StableHlo.after hostOps1 (W2 m ρ c) (Proc.devRef .tc main_arg15) = _
  after_results
  exact W2_arg15 m ρ c

theorem V3_arg17 (c : Dev nD) : V3 m ρ c main_arg17 = (m ((c : Thread nD τ).loc main_arg17)) := by
  show StableHlo.after hostOps1 (W2 m ρ c) (Proc.devRef .tc main_arg17) = _
  after_results
  exact W2_arg17 m ρ c

/-- The edge network's result, scatter-added into a zero array at the second row of the edge list. The
    result itself stays the fold's value at its buffer. -/
theorem V3_v25 (c : Dev nD) :
    V3 m ρ c main_v25 = Host.scatterAdd (F := Ideal) (φ := .f32) scatter_S50000x64_S800000x1_S800000x64_1_0_0_1
      (Cert.ReferenceIdeal.Read.val_main_v38 (F := Ideal)) (Cert.ReferenceIdeal.Read.val_main_v39 (F := Ideal) (m ((c : Thread nD τ).loc main_arg1)))
      (W2 m ρ c (Proc.devRef .tc main_v22)) := by
  show StableHlo.after hostOps1 (W2 m ρ c) (Proc.devRef .tc main_v25) = _
  after_results
  rw [W2_v3 m ρ c]
  generalize W2 m ρ c (Proc.devRef .tc main_v22) = u
  rfl

theorem V3_v26 (c : Dev nD) :
    V3 m ρ c main_v26 = shapeCast S1x128 (m ((c : Thread nD τ).loc main_arg12)) shapeCasts_S128_S1x128 := by
  show StableHlo.after hostOps1 (W2 m ρ c) (Proc.devRef .tc main_v26) = _
  after_results
  rw [W2_arg12 m ρ c]
  rfl

theorem V3_v27 (c : Dev nD) :
    V3 m ρ c main_v27 = shapeCast S1x128 (m ((c : Thread nD τ).loc main_arg14)) shapeCasts_S128_S1x128 := by
  show StableHlo.after hostOps1 (W2 m ρ c) (Proc.devRef .tc main_v27) = _
  after_results
  rw [W2_arg14 m ρ c]
  rfl

theorem V3_v28 (c : Dev nD) :
    V3 m ρ c main_v28 = shapeCast S1x128 (m ((c : Thread nD τ).loc main_arg16)) shapeCasts_S128_S1x128 := by
  show StableHlo.after hostOps1 (W2 m ρ c) (Proc.devRef .tc main_v28) = _
  after_results
  rw [W2_arg16 m ρ c]
  rfl

theorem V3_v29 (c : Dev nD) :
    V3 m ρ c main_v29 = shapeCast S1x64 (m ((c : Thread nD τ).loc main_arg18)) shapeCasts_S64_S1x64 := by
  show StableHlo.after hostOps1 (W2 m ρ c) (Proc.devRef .tc main_v29) = _
  after_results
  rw [W2_arg18 m ρ c]
  rfl

/-! ## Across the node network

The edge network's result is no array of the node network and no operation of the second stretch writes it:
at the end of the program its buffer still holds what the edge network left. -/

theorem W4_v22 (c : Dev nD) :
    W4 m ρ c (Proc.devRef .tc main_v22) = W2 m ρ c (Proc.devRef .tc main_v22) := by
  refine (W4_of_ne m ρ c main_v22 (by decide)).trans ?_
  show StableHlo.after hostOps1 (W2 m ρ c) (Proc.devRef .tc main_v22) = _
  after_results

end Cert.KernelIdeal.HostValue
-- ==== Proof.Results.lean ====
/-
  The two results as functions of the nineteen argument arrays.

  Both programs gather the source and target node rows with the same host operations, so those gathered arrays, the
  column of target indices and the zero array the scatter starts from are carried here as the reference's own composed
  terms of the arguments and never opened. The edge results are the edge network over (gathered source rows ‖ gathered
  target rows ‖ edge features); the node results are the node network over (node features ‖ the edge results summed
  onto their target nodes).
-/
import proofs.«146145_j12850542150609_1_alg».proof.Proof.Gen.ReferenceIdeal.Read
import proofs.«146145_j12850542150609_1_alg».proof.Proof.Spec

noncomputable section

namespace Cert.Results

open Idealize.ShloMosaic Idealize.ShloMosaic.ValueIdx Cert.Spec Cert.ReferenceIdeal Cert.ReferenceIdeal.Read

theorem hcatE : Shape.Concatenates [⟨2, ![800000, 64]⟩, ⟨2, ![800000, 64]⟩, ⟨2, ![800000, 64]⟩] ⟨2, ![800000, 192]⟩ 1 := by
  decide

theorem hcatN : Shape.Concatenates [⟨2, ![50000, 64]⟩, ⟨2, ![50000, 64]⟩] ⟨2, ![50000, 128]⟩ 1 := by
  decide

/-- The edge results of the arguments. -/
def edgeRes (a0 : (⟨S50000x64, .f32⟩ : BufTy).Contents (Elt Ideal)) (a1 : (⟨S2x800000, .i32⟩ : BufTy).Contents (Elt Ideal))
    (a2 : (⟨S800000x64, .f32⟩ : BufTy).Contents (Elt Ideal)) (a3 : (⟨S192x128, .f32⟩ : BufTy).Contents (Elt Ideal))
    (a4 : (⟨S128, .f32⟩ : BufTy).Contents (Elt Ideal)) (a5 : (⟨S128x128, .f32⟩ : BufTy).Contents (Elt Ideal))
    (a6 : (⟨S128, .f32⟩ : BufTy).Contents (Elt Ideal)) (a7 : (⟨S128x128, .f32⟩ : BufTy).Contents (Elt Ideal))
    (a8 : (⟨S128, .f32⟩ : BufTy).Contents (Elt Ideal)) (a9 : (⟨S128x64, .f32⟩ : BufTy).Contents (Elt Ideal))
    (a10 : (⟨S64, .f32⟩ : BufTy).Contents (Elt Ideal)) : (⟨S800000x64, .f32⟩ : BufTy).Contents (Elt Ideal) :=
  edgeArr (val_main_v10 (F := Ideal) a0 a1) (val_main_v17 (F := Ideal) a0 a1) a2 hcatE
    (fun k j => a3 (ix2 k j)) (fun j => a4 (ix1 j)) (fun k j => a5 (ix2 k j)) (fun j => a6 (ix1 j))
    (fun k j => a7 (ix2 k j)) (fun j => a8 (ix1 j)) (fun k j => a9 (ix2 k j)) (fun j => a10 (ix1 j))

/-- The edge results summed onto their target nodes. -/
def msgRes (a1 : (⟨S2x800000, .i32⟩ : BufTy).Contents (Elt Ideal)) (E : (⟨S800000x64, .f32⟩ : BufTy).Contents (Elt Ideal)) :
    (⟨S50000x64, .f32⟩ : BufTy).Contents (Elt Ideal) :=
  Host.scatterAdd (F := Ideal) (φ := .f32) scatter_S50000x64_S800000x1_S800000x64_1_0_0_1 (val_main_v38 (F := Ideal)) (val_main_v39 (F := Ideal) a1) E

/-- The node results of the arguments. -/
def nodeRes (a0 : (⟨S50000x64, .f32⟩ : BufTy).Contents (Elt Ideal)) (a1 : (⟨S2x800000, .i32⟩ : BufTy).Contents (Elt Ideal))
    (a2 : (⟨S800000x64, .f32⟩ : BufTy).Contents (Elt Ideal)) (a3 : (⟨S192x128, .f32⟩ : BufTy).Contents (Elt Ideal))
    (a4 : (⟨S128, .f32⟩ : BufTy).Contents (Elt Ideal)) (a5 : (⟨S128x128, .f32⟩ : BufTy).Contents (Elt Ideal))
    (a6 : (⟨S128, .f32⟩ : BufTy).Contents (Elt Ideal)) (a7 : (⟨S128x128, .f32⟩ : BufTy).Contents (Elt Ideal))
    (a8 : (⟨S128, .f32⟩ : BufTy).Contents (Elt Ideal)) (a9 : (⟨S128x64, .f32⟩ : BufTy).Contents (Elt Ideal))
    (a10 : (⟨S64, .f32⟩ : BufTy).Contents (Elt Ideal)) (a11 : (⟨S128x128, .f32⟩ : BufTy).Contents (Elt Ideal))
    (a12 : (⟨S128, .f32⟩ : BufTy).Contents (Elt Ideal)) (a13 : (⟨S128x128, .f32⟩ : BufTy).Contents (Elt Ideal))
    (a14 : (⟨S128, .f32⟩ : BufTy).Contents (Elt Ideal)) (a15 : (⟨S128x128, .f32⟩ : BufTy).Contents (Elt Ideal))
    (a16 : (⟨S128, .f32⟩ : BufTy).Contents (Elt Ideal)) (a17 : (⟨S128x64, .f32⟩ : BufTy).Contents (Elt Ideal))
    (a18 : (⟨S64, .f32⟩ : BufTy).Contents (Elt Ideal)) : (⟨S50000x64, .f32⟩ : BufTy).Contents (Elt Ideal) :=
  nodeArr a0 (msgRes a1 (edgeRes a0 a1 a2 a3 a4 a5 a6 a7 a8 a9 a10)) hcatN
    (fun k j => a11 (ix2 k j)) (fun j => a12 (ix1 j)) (fun k j => a13 (ix2 k j)) (fun j => a14 (ix1 j))
    (fun k j => a15 (ix2 k j)) (fun j => a16 (ix1 j)) (fun k j => a17 (ix2 k j)) (fun j => a18 (ix1 j))

end Cert.Results

end
-- ==== Proof.KernelValue.lean ====
/-
  The kernel program's two results as functions of its arguments.

  The edge-result array is not touched after the edge network's region, so at the end it still holds what that region
  left: the edge network over the arrays the region was entered with, which the first host stretch made from the
  arguments (the two gathered row arrays, the edge features and weights as launched, each bias vector laid out as one
  row). The node-result array holds what the node network's region left: the node network over the node features as
  launched and the message array, which the second host stretch made by summing the edge results onto their target
  nodes.
-/
import proofs.«146145_j12850542150609_1_alg».proof.Proof.KernelRun
import proofs.«146145_j12850542150609_1_alg».proof.Proof.EdgeArray
import proofs.«146145_j12850542150609_1_alg».proof.Proof.NodeArray
import proofs.«146145_j12850542150609_1_alg».proof.Proof.HostStretch
import proofs.«146145_j12850542150609_1_alg».proof.Proof.Results

set_option maxRecDepth 16384

noncomputable section

namespace Cert.KernelIdeal.Whole

open Idealize.ShloMosaic Idealize.ShloMosaic.TcCoe Idealize.ShloMosaic.ValueIdx Idealize.SL.Sem Cert.MlpRows
open Cert.KernelIdeal Cert.KernelIdeal.Gen Cert.KernelIdeal.HostValue

variable (m : (ℓ : Loc nD τ sig) → Buf (Elt Ideal) ℓ) (ρ : Dev nD → PrngReg)

/-! ## A bias laid out as one row reads back as the bias vector -/

theorem row_v18 (c : Dev nD) :
    (fun j : Fin 128 => V1 m ρ c main_v18 (ix2 (0 : Fin 1) j)) = fun j => m ((c : Thread nD τ).loc main_arg4) (ix1 j) :=
  funext fun j => by rw [V1_v18]; exact row_of_vec _ shapeCasts_S128_S1x128 j

theorem row_v19 (c : Dev nD) :
    (fun j : Fin 128 => V1 m ρ c main_v19 (ix2 (0 : Fin 1) j)) = fun j => m ((c : Thread nD τ).loc main_arg6) (ix1 j) :=
  funext fun j => by rw [V1_v19]; exact row_of_vec _ shapeCasts_S128_S1x128 j

theorem row_v20 (c : Dev nD) :
    (fun j : Fin 128 => V1 m ρ c main_v20 (ix2 (0 : Fin 1) j)) = fun j => m ((c : Thread nD τ).loc main_arg8) (ix1 j) :=
  funext fun j => by rw [V1_v20]; exact row_of_vec _ shapeCasts_S128_S1x128 j

theorem row_v21 (c : Dev nD) :
    (fun j : Fin 64 => V1 m ρ c main_v21 (ix2 (0 : Fin 1) j)) = fun j => m ((c : Thread nD τ).loc main_arg10) (ix1 j) :=
  funext fun j => by rw [V1_v21]; exact row_of_vec _ shapeCasts_S64_S1x64 j

theorem row_v26 (c : Dev nD) :
    (fun j : Fin 128 => V3 m ρ c main_v26 (ix2 (0 : Fin 1) j)) = fun j => m ((c : Thread nD τ).loc main_arg12) (ix1 j) :=
  funext fun j => by rw [V3_v26]; exact row_of_vec _ shapeCasts_S128_S1x128 j

theorem row_v27 (c : Dev nD) :
    (fun j : Fin 128 => V3 m ρ c main_v27 (ix2 (0 : Fin 1) j)) = fun j => m ((c : Thread nD τ).loc main_arg14) (ix1 j) :=
  funext fun j => by rw [V3_v27]; exact row_of_vec _ shapeCasts_S128_S1x128 j

theorem row_v28 (c : Dev nD) :
    (fun j : Fin 128 => V3 m ρ c main_v28 (ix2 (0 : Fin 1) j)) = fun j => m ((c : Thread nD τ).loc main_arg16) (ix1 j) :=
  funext fun j => by rw [V3_v28]; exact row_of_vec _ shapeCasts_S128_S1x128 j

theorem row_v29 (c : Dev nD) :
    (fun j : Fin 64 => V3 m ρ c main_v29 (ix2 (0 : Fin 1) j)) = fun j => m ((c : Thread nD τ).loc main_arg18) (ix1 j) :=
  funext fun j => by rw [V3_v29]; exact row_of_vec _ shapeCasts_S64_S1x64 j

/-- The two programs' scatter records are the same dimension numbers. -/
theorem scatter_eq : scatter_S50000x64_S800000x1_S800000x64_1_0_0_1
    = Cert.ReferenceIdeal.scatter_S50000x64_S800000x1_S800000x64_1_0_0_1 := rfl

/-! ## The two results -/

/-- The edge network over the first host stretch's buffers is the edge results of the arguments: the gathered row
    arrays are the reference's own terms, the weights are as launched, the biases as above. -/
theorem edgeOf_eq (c : Dev nD) :
    EdgeValue.edgeOf (V1 m ρ) c = Cert.Results.edgeRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold EdgeValue.edgeOf Cert.Results.edgeRes
  rw [row_v18 m ρ c, row_v19 m ρ c, row_v20 m ρ c, row_v21 m ρ c, V1_v10, V1_v17, V1_arg2, V1_arg3, V1_arg5, V1_arg7, V1_arg9]

/-- What the edge network's region leaves in its result array. -/
theorem edge_after_region (c : Dev nD) :
    W2 m ρ c (Proc.devRef .tc main_v22) = Cert.Results.edgeRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W2_arr m ρ c 11).trans ((EdgeValue.final (V1 m ρ) c).trans (edgeOf_eq m ρ c))

/-- The edge results at the end of the run. -/
theorem edge_result (c : Dev nD) :
    W4 m ρ c (Proc.devRef .tc main_v22) = Cert.Results.edgeRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_v22 m ρ c).trans (edge_after_region m ρ c)

/-- The node network over the second host stretch's buffers is the node results of the arguments. -/
theorem nodeOf_eq (c : Dev nD) :
    NodeValue.nodeOf (V3 m ρ) c = Cert.Results.nodeRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  unfold NodeValue.nodeOf Cert.Results.nodeRes Cert.Results.msgRes
  rw [row_v26 m ρ c, row_v27 m ρ c, row_v28 m ρ c, row_v29 m ρ c, V3_arg0, V3_v25, V3_arg11, V3_arg13, V3_arg15, V3_arg17,
    edge_after_region, scatter_eq]

/-- The node results at the end of the run. -/
theorem node_result (c : Dev nD) :
    W4 m ρ c (Proc.devRef .tc main_v30) = Cert.Results.nodeRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (W4_arr m ρ c 10).trans ((NodeValue.final (V3 m ρ) c).trans (nodeOf_eq m ρ c))

end Cert.KernelIdeal.Whole

end
-- ==== Proof.RefValue.lean ====
/-
  The reference program's two results are the specification's two arrays.

  The reference joins, for every edge, the source node's features, the target node's features and the edge's own
  features into one row of width 192, and sends that row through four dense layers (a matrix product plus a bias
  vector, with a rectifier after each of the first three); the result is the edge output. It then adds the edge
  outputs onto their target nodes, joins each node's features with the sum it received into one row of width 128,
  and sends that row through four more dense layers; the result is the node output.

  On the extended reals a dense layer read at (p, q) is the affine image of row p of its input, and the rectifier is
  the maximum with zero. So each result read at (p, q) is the four-layer network applied to row p of the joined
  array. The gathers, the joins and the scatter-add are never read at an index here: they occur as the same subterm
  on both sides of each equation.
-/
import proofs.«146145_j12850542150609_1_alg».proof.Proof.Gen.ReferenceIdeal.Read
import proofs.«146145_j12850542150609_1_alg».proof.Proof.Spec

noncomputable section

namespace Cert.ReferenceIdeal.RefValue

open Idealize.ShloMosaic Idealize.ShloMosaic.ValueIdx Cert.MlpRows Cert.ReferenceIdeal Cert.ReferenceIdeal.Gen Cert.ReferenceIdeal.Read

/-! ## The printed dimension numbers are those of a plain matrix product -/

theorem dot_e0 : dot_S800000x192_S192x128_S800000x128_1_0_0_1_n_n = DotDims.plain 800000 192 128 := rfl
theorem dot_e1 : dot_S800000x128_S128x128_S800000x128_1_0_0_1_n_n = DotDims.plain 800000 128 128 := rfl
theorem dot_e3 : dot_S800000x128_S128x64_S800000x64_1_0_0_1_n_n = DotDims.plain 800000 128 64 := rfl
theorem dot_n0 : dot_S50000x128_S128x128_S50000x128_1_0_0_1_n_n = DotDims.plain 50000 128 128 := rfl
theorem dot_n3 : dot_S50000x128_S128x64_S50000x64_1_0_0_1_n_n = DotDims.plain 50000 128 64 := rfl

/-! ## One hidden layer, row by row -/

/-- A dense layer followed by the rectifier, at (p, q): the rectified affine image of row p. -/
theorem hidden_layer {M K N : Nat} (X : FVec Ideal ⟨2, ![M, K]⟩ .f32) (W : FVec Ideal ⟨2, ![K, N]⟩ .f32)
    (b : FVec Ideal ⟨1, ![N]⟩ .f32) (prec : Option ContractPrecision)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf (addf (Host.dotGeneral (DotDims.plain M K N) prec X W)
          (broadcastInDim ⟨2, ![M, N]⟩ ![0, 1] h2 (broadcastInDim ⟨2, ![1, N]⟩ ![1] h1 b)))
        (broadcastInDim ⟨2, ![M, N]⟩ ![] h0 (constant ⟨0, ![]⟩ .f32 0x00000000#32)) (ix2 p q)
      = relu (affine (fun k => X (ix2 p k)) (fun k j => W (ix2 k j)) (fun j => b (ix1 j))) q := by
  rw [host_relu, host_affine]
  rfl

/-! ## The edge network -/

section Edge
variable (x0 : (⟨S50000x64, .f32⟩ : BufTy).Contents (Elt Ideal))
  (x1 : (⟨S2x800000, .i32⟩ : BufTy).Contents (Elt Ideal))
  (x2 : (⟨S800000x64, .f32⟩ : BufTy).Contents (Elt Ideal))
  (x3 : (⟨S192x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x64, .f32⟩ : BufTy).Contents (Elt Ideal))
  (x10 : (⟨S64, .f32⟩ : BufTy).Contents (Elt Ideal))

/-- Row e after the first layer and its rectifier. -/
theorem edge_l0 (e : Fin 800000) (q : Fin 128) :
    val_main_v23 (F := Ideal) x0 x1 x2 x3 x4 (ix2 e q)
      = relu (affine (fun k => val_main_v18 (F := Ideal) x0 x1 x2 (ix2 e k)) (fun k j => x3 (ix2 k j)) (fun j => x4 (ix1 j))) q := by
  unfold val_main_v23 val_main_v22 val_main_v21 val_main_v20 val_main_v19 val_main_call0_v0 val_main_call0_cst
  rw [dot_e0]
  exact hidden_layer _ _ _ _ _ _ _ e q

/-- Row e after the second layer and its rectifier. -/
theorem edge_l1 (e : Fin 800000) (q : Fin 128) :
    val_main_v28 (F := Ideal) x0 x1 x2 x3 x4 x5 x6 (ix2 e q)
      = relu (affine (relu (affine (fun k => val_main_v18 (F := Ideal) x0 x1 x2 (ix2 e k)) (fun k j => x3 (ix2 k j)) (fun j => x4 (ix1 j)))) (fun k j => x5 (ix2 k j)) (fun j => x6 (ix1 j))) q := by
  unfold val_main_v28 val_main_v27 val_main_v26 val_main_v25 val_main_v24 val_main_call1_v0 val_main_call1_cst
  rw [dot_e1, hidden_layer]
  have h : (fun k => val_main_v23 (F := Ideal) x0 x1 x2 x3 x4 (ix2 e k)) = _ := funext (edge_l0 x0 x1 x2 x3 x4 e)
  rw [h]

/-- Row e after the third layer and its rectifier. -/
theorem edge_l2 (e : Fin 800000) (q : Fin 128) :
    val_main_v33 (F := Ideal) x0 x1 x2 x3 x4 x5 x6 x7 x8 (ix2 e q)
      = relu (affine (relu (affine (relu (affine (fun k => val_main_v18 (F := Ideal) x0 x1 x2 (ix2 e k)) (fun k j => x3 (ix2 k j)) (fun j => x4 (ix1 j)))) (fun k j => x5 (ix2 k j)) (fun j => x6 (ix1 j)))) (fun k j => x7 (ix2 k j)) (fun j => x8 (ix1 j))) q := by
  unfold val_main_v33 val_main_v32 val_main_v31 val_main_v30 val_main_v29 val_main_call2_v0 val_main_call2_cst
  rw [dot_e1, hidden_layer]
  have h : (fun k => val_main_v28 (F := Ideal) x0 x1 x2 x3 x4 x5 x6 (ix2 e k)) = _ := funext (edge_l1 x0 x1 x2 x3 x4 x5 x6 e)
  rw [h]

/-- The edge output is the specification's edge array. -/
theorem edge_eq : val_main_v37 (F := Ideal) x0 x1 x2 x3 x4 x5 x6 x7 x8 x9 x10
      = Cert.Spec.edgeArr (val_main_v10 (F := Ideal) x0 x1) (val_main_v17 (F := Ideal) x0 x1) x2 concatenates_S800000x64_S800000x64_S800000x64_S800000x192_d1
          (fun k j => x3 (ix2 k j)) (fun j => x4 (ix1 j)) (fun k j => x5 (ix2 k j)) (fun j => x6 (ix1 j)) (fun k j => x7 (ix2 k j)) (fun j => x8 (ix1 j)) (fun k j => x9 (ix2 k j)) (fun j => x10 (ix1 j)) := by
  funext i
  obtain ⟨e, q, rfl⟩ : ∃ (e : Fin 800000) (q : Fin 64), i = ix2 e q := ⟨i 0, i 1, eq_ix2 i⟩
  rw [Cert.Spec.edgeArr_apply]
  unfold val_main_v37 val_main_v36 val_main_v35 val_main_v34
  rw [dot_e3, host_affine]
  have h : (fun k => val_main_v33 (F := Ideal) x0 x1 x2 x3 x4 x5 x6 x7 x8 (ix2 e k)) = _ := funext (edge_l2 x0 x1 x2 x3 x4 x5 x6 x7 x8 e)
  rw [h]
  rfl

end Edge

/-! ## The node network -/

section Node
variable (x0 : (⟨S50000x64, .f32⟩ : BufTy).Contents (Elt Ideal))
  (x1 : (⟨S2x800000, .i32⟩ : BufTy).Contents (Elt Ideal))
  (x2 : (⟨S800000x64, .f32⟩ : BufTy).Contents (Elt Ideal))
  (x3 : (⟨S192x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x64, .f32⟩ : BufTy).Contents (Elt Ideal))
  (x10 : (⟨S64, .f32⟩ : BufTy).Contents (Elt Ideal))
  (x11 : (⟨S128x128, .f32⟩ : BufTy).Contents (Elt Ideal))
  (x12 : (⟨S128, .f32⟩ : BufTy).Contents (Elt Ideal))
  (x13 : (⟨S128x128, .f32⟩ : BufTy).Contents (Elt Ideal))
  (x14 : (⟨S128, .f32⟩ : BufTy).Contents (Elt Ideal))
  (x15 : (⟨S128x128, .f32⟩ : BufTy).Contents (Elt Ideal))
  (x16 : (⟨S128, .f32⟩ : BufTy).Contents (Elt Ideal))
  (x17 : (⟨S128x64, .f32⟩ : BufTy).Contents (Elt Ideal))
  (x18 : (⟨S64, .f32⟩ : BufTy).Contents (Elt Ideal))

/-- Row n after the first layer and its rectifier. -/
theorem node_l0 (n : Fin 50000) (q : Fin 128) :
    val_main_v46 (F := Ideal) x0 x1 x2 x3 x4 x5 x6 x7 x8 x9 x10 x11 x12 (ix2 n q)
      = relu (affine (fun k => val_main_v41 (F := Ideal) x0 x1 x2 x3 x4 x5 x6 x7 x8 x9 x10 (ix2 n k)) (fun k j => x11 (ix2 k j)) (fun j => x12 (ix1 j))) q := by
  unfold val_main_v46 val_main_v45 val_main_v44 val_main_v43 val_main_v42 val_main_call3_v0 val_main_call3_cst
  rw [dot_n0]
  exact hidden_layer _ _ _ _ _ _ _ n q

/-- Row n after the second layer and its rectifier. -/
theorem node_l1 (n : Fin 50000) (q : Fin 128) :
    val_main_v51 (F := Ideal) x0 x1 x2 x3 x4 x5 x6 x7 x8 x9 x10 x11 x12 x13 x14 (ix2 n q)
      = relu (affine (relu (affine (fun k => val_main_v41 (F := Ideal) x0 x1 x2 x3 x4 x5 x6 x7 x8 x9 x10 (ix2 n k)) (fun k j => x11 (ix2 k j)) (fun j => x12 (ix1 j)))) (fun k j => x13 (ix2 k j)) (fun j => x14 (ix1 j))) q := by
  unfold val_main_v51 val_main_v50 val_main_v49 val_main_v48 val_main_v47 val_main_call4_v0 val_main_call4_cst
  rw [dot_n0, hidden_layer]
  have h : (fun k => val_main_v46 (F := Ideal) x0 x1 x2 x3 x4 x5 x6 x7 x8 x9 x10 x11 x12 (ix2 n k)) = _ := funext (node_l0 x0 x1 x2 x3 x4 x5 x6 x7 x8 x9 x10 x11 x12 n)
  rw [h]

/-- Row n after the third layer and its rectifier. -/
theorem node_l2 (n : Fin 50000) (q : Fin 128) :
    val_main_v56 (F := Ideal) x0 x1 x2 x3 x4 x5 x6 x7 x8 x9 x10 x11 x12 x13 x14 x15 x16 (ix2 n q)
      = relu (affine (relu (affine (relu (affine (fun k => val_main_v41 (F := Ideal) x0 x1 x2 x3 x4 x5 x6 x7 x8 x9 x10 (ix2 n k)) (fun k j => x11 (ix2 k j)) (fun j => x12 (ix1 j)))) (fun k j => x13 (ix2 k j)) (fun j => x14 (ix1 j)))) (fun k j => x15 (ix2 k j)) (fun j => x16 (ix1 j))) q := by
  unfold val_main_v56 val_main_v55 val_main_v54 val_main_v53 val_main_v52 val_main_call5_v0 val_main_call5_cst
  rw [dot_n0, hidden_layer]
  have h : (fun k => val_main_v51 (F := Ideal) x0 x1 x2 x3 x4 x5 x6 x7 x8 x9 x10 x11 x12 x13 x14 (ix2 n k)) = _ := funext (node_l1 x0 x1 x2 x3 x4 x5 x6 x7 x8 x9 x10 x11 x12 x13 x14 n)
  rw [h]

/-- The node output is the specification's node array. -/
theorem node_eq : val_main_v60 (F := Ideal) x0 x1 x2 x3 x4 x5 x6 x7 x8 x9 x10 x11 x12 x13 x14 x15 x16 x17 x18
      = Cert.Spec.nodeArr x0 (val_main_v40 (F := Ideal) x0 x1 x2 x3 x4 x5 x6 x7 x8 x9 x10) concatenates_S50000x64_S50000x64_S50000x128_d1
          (fun k j => x11 (ix2 k j)) (fun j => x12 (ix1 j)) (fun k j => x13 (ix2 k j)) (fun j => x14 (ix1 j)) (fun k j => x15 (ix2 k j)) (fun j => x16 (ix1 j)) (fun k j => x17 (ix2 k j)) (fun j => x18 (ix1 j)) := by
  funext i
  obtain ⟨n, q, rfl⟩ : ∃ (n : Fin 50000) (q : Fin 64), i = ix2 n q := ⟨i 0, i 1, eq_ix2 i⟩
  rw [Cert.Spec.nodeArr_apply]
  unfold val_main_v60 val_main_v59 val_main_v58 val_main_v57
  rw [dot_n3, host_affine]
  have h : (fun k => val_main_v56 (F := Ideal) x0 x1 x2 x3 x4 x5 x6 x7 x8 x9 x10 x11 x12 x13 x14 x15 x16 (ix2 n k)) = _ := funext (node_l2 x0 x1 x2 x3 x4 x5 x6 x7 x8 x9 x10 x11 x12 x13 x14 x15 x16 n)
  rw [h]
  rfl

end Node

end Cert.ReferenceIdeal.RefValue

end
-- ==== Proof.RefRun.lean ====
/-
  The reference program's run, with its two results stated as functions of the nineteen argument arrays.

  The generated run theorem says that every weakly fair execution of the reference terminates with each result equal
  to the operations' composed term of the arguments, and with the arguments unchanged. The composed term of the edge
  result is the edge network's stage, which is the specification's edge array; the composed term of the node result
  is the node network's stage over the node features joined with the scatter-add of the edge result, which is the
  specification's node array over the scatter-add of the specification's edge array. The scatter-add, the gathers
  and the joins are carried as the same subterms on both sides and never opened.
-/
import proofs.«146145_j12850542150609_1_alg».proof.Proof.Gen.ReferenceIdeal.Run
import proofs.«146145_j12850542150609_1_alg».proof.Proof.Gen.ReferenceIdeal.Read
import proofs.«146145_j12850542150609_1_alg».proof.Proof.RefValue
import proofs.«146145_j12850542150609_1_alg».proof.Proof.Results

noncomputable section

namespace Cert.ReferenceIdeal.RefRun

open Cert.ReferenceIdeal Cert.ReferenceIdeal.Gen Cert.ReferenceIdeal.Read Cert.ReferenceIdeal.RefValue
  Idealize.ShloMosaic Idealize.ShloMosaic.TcCoe Idealize.SL.Sem Idealize.ShloMosaic.StableHlo

section Values
variable (a0 : (⟨S50000x64, .f32⟩ : BufTy).Contents (Elt Ideal))
  (a1 : (⟨S2x800000, .i32⟩ : BufTy).Contents (Elt Ideal))
  (a2 : (⟨S800000x64, .f32⟩ : BufTy).Contents (Elt Ideal))
  (a3 : (⟨S192x128, .f32⟩ : BufTy).Contents (Elt Ideal))
  (a4 : (⟨S128, .f32⟩ : BufTy).Contents (Elt Ideal))
  (a5 : (⟨S128x128, .f32⟩ : BufTy).Contents (Elt Ideal))
  (a6 : (⟨S128, .f32⟩ : BufTy).Contents (Elt Ideal))
  (a7 : (⟨S128x128, .f32⟩ : BufTy).Contents (Elt Ideal))
  (a8 : (⟨S128, .f32⟩ : BufTy).Contents (Elt Ideal))
  (a9 : (⟨S128x64, .f32⟩ : BufTy).Contents (Elt Ideal))
  (a10 : (⟨S64, .f32⟩ : BufTy).Contents (Elt Ideal))
  (a11 : (⟨S128x128, .f32⟩ : BufTy).Contents (Elt Ideal))
  (a12 : (⟨S128, .f32⟩ : BufTy).Contents (Elt Ideal))
  (a13 : (⟨S128x128, .f32⟩ : BufTy).Contents (Elt Ideal))
  (a14 : (⟨S128, .f32⟩ : BufTy).Contents (Elt Ideal))
  (a15 : (⟨S128x128, .f32⟩ : BufTy).Contents (Elt Ideal))
  (a16 : (⟨S128, .f32⟩ : BufTy).Contents (Elt Ideal))
  (a17 : (⟨S128x64, .f32⟩ : BufTy).Contents (Elt Ideal))
  (a18 : (⟨S64, .f32⟩ : BufTy).Contents (Elt Ideal))

/-- The edge stage is the edge results of the arguments. -/
theorem edge_res : val_main_v37 (F := Ideal) a0 a1 a2 a3 a4 a5 a6 a7 a8 a9 a10 = Cert.Results.edgeRes a0 a1 a2 a3 a4 a5 a6 a7 a8 a9 a10 :=
  edge_eq a0 a1 a2 a3 a4 a5 a6 a7 a8 a9 a10

/-- The scatter-add stage is the edge results summed onto their target nodes. -/
theorem msg_res : val_main_v40 (F := Ideal) a0 a1 a2 a3 a4 a5 a6 a7 a8 a9 a10 = Cert.Results.msgRes a1 (Cert.Results.edgeRes a0 a1 a2 a3 a4 a5 a6 a7 a8 a9 a10) := by
  unfold val_main_v40 Cert.Results.msgRes
  rw [edge_res]

/-- The node stage is the node results of the arguments. -/
theorem node_res : val_main_v60 (F := Ideal) a0 a1 a2 a3 a4 a5 a6 a7 a8 a9 a10 a11 a12 a13 a14 a15 a16 a17 a18 = Cert.Results.nodeRes a0 a1 a2 a3 a4 a5 a6 a7 a8 a9 a10 a11 a12 a13 a14 a15 a16 a17 a18 := by
  rw [node_eq, msg_res]
  rfl

end Values

set_option maxRecDepth 8192 in
/-- On every device, from any memory with zero counters: every weakly fair execution of the reference terminates
    with the node output at the node results of the arguments, the edge output at the edge results of the
    arguments, and the arguments unchanged. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60) = Cert.Results.nodeRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v37) = Cert.Results.edgeRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c =>
      ⟨(h c).1.trans ((val_main_v60_eq m c).trans (node_res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))),
       (h c).2.1.trans ((val_main_v37_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).trans (edge_res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))),
       (h c).2.2⟩)
    (Cert.ReferenceIdeal.Value.run (F := Ideal) m ρ)

end Cert.ReferenceIdeal.RefRun

end
-- ==== Proof.lean ====
/-
  One message-passing layer of a graph network: the kernel program against its reference, over the extended reals.

  Both programs compute, for a graph with 50000 nodes (64 features each) and 800000 edges (64 features each):
  the edge results, a four-layer network (dense 192→128, 128→128, 128→128, 128→64, a rectifier after each of the first
  three) applied to every edge's row (source node's features ‖ target node's features ‖ edge features); the messages,
  the edge results summed onto their target nodes; and the node results, a second four-layer network (128→128, 128→128,
  128→128, 128→64) applied to every node's row (node features ‖ message). The reference does this with whole-array
  operations. The kernel program gathers the node rows and scatters the messages with the same host operations and
  runs the two networks as two grid regions, 200 blocks of 4000 edges and 10 blocks of 5000 nodes, with bf16 operands
  to the matrix product and f32 accumulation; on the extended reals a change of float format is the identity, the
  blockwise product into a zero accumulator and the whole-array product are the same sum, and a dense layer acts on each
  row by itself, so a block of rows of the whole-array result is the network applied to that block of rows.

  The frames of the two kernel programs are the generated frame certificates; the reference's frame is its generated
  run with the results dropped; the idealization rewrote nothing, so `preserves` is trivial. For `algebraic` both runs
  are posted at the same two functions of the arguments (`Results.nodeRes`, `Results.edgeRes`): the kernel's from its run
  with the final memory named (KernelRun, KernelValue over EdgeArray, NodeArray and HostStretch), the reference's from
  its generated run read layer by layer (RefValue, RefRun). The precondition is not used: no step needs finiteness.
-/
import proofs.«146145_j12850542150609_1_alg».proof.Defs
import proofs.«146145_j12850542150609_1_alg».proof.Proof.Gen.Kernel
import proofs.«146145_j12850542150609_1_alg».proof.Proof.Gen.Kernel.Frame
import proofs.«146145_j12850542150609_1_alg».proof.Proof.Gen.KernelIdeal
import proofs.«146145_j12850542150609_1_alg».proof.Proof.Gen.KernelIdeal.Frame
import proofs.«146145_j12850542150609_1_alg».proof.Proof.Gen.ReferenceIdeal
import proofs.«146145_j12850542150609_1_alg».proof.Proof.Gen.Pre_finite_inputs
import proofs.«146145_j12850542150609_1_alg».proof.Proof.Gen.ReferenceIdeal.Run
import proofs.«146145_j12850542150609_1_alg».proof.Proof.Gen.ReferenceIdeal.Read
import proofs.«146145_j12850542150609_1_alg».proof.Proof.KernelValue
import proofs.«146145_j12850542150609_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's generated run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Equal arguments give equal edge results. -/
theorem edgeRes_congr {a0 b0 : (⟨Cert.ReferenceIdeal.S50000x64, .f32⟩ : BufTy).Contents (Elt Ideal)} {a1 b1 : (⟨Cert.ReferenceIdeal.S2x800000, .i32⟩ : BufTy).Contents (Elt Ideal)} {a2 b2 : (⟨Cert.ReferenceIdeal.S800000x64, .f32⟩ : BufTy).Contents (Elt Ideal)} {a3 b3 : (⟨Cert.ReferenceIdeal.S192x128, .f32⟩ : BufTy).Contents (Elt Ideal)} {a4 b4 : (⟨Cert.ReferenceIdeal.S128, .f32⟩ : BufTy).Contents (Elt Ideal)} {a5 b5 : (⟨Cert.ReferenceIdeal.S128x128, .f32⟩ : BufTy).Contents (Elt Ideal)} {a6 b6 : (⟨Cert.ReferenceIdeal.S128, .f32⟩ : BufTy).Contents (Elt Ideal)} {a7 b7 : (⟨Cert.ReferenceIdeal.S128x128, .f32⟩ : BufTy).Contents (Elt Ideal)} {a8 b8 : (⟨Cert.ReferenceIdeal.S128, .f32⟩ : BufTy).Contents (Elt Ideal)} {a9 b9 : (⟨Cert.ReferenceIdeal.S128x64, .f32⟩ : BufTy).Contents (Elt Ideal)} {a10 b10 : (⟨Cert.ReferenceIdeal.S64, .f32⟩ : BufTy).Contents (Elt Ideal)}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    Cert.Results.edgeRes a0 a1 a2 a3 a4 a5 a6 a7 a8 a9 a10 = Cert.Results.edgeRes b0 b1 b2 b3 b4 b5 b6 b7 b8 b9 b10 := by
  subst h0 h1 h2 h3 h4 h5 h6 h7 h8 h9 h10; rfl

/-- Equal arguments give equal node results. -/
theorem nodeRes_congr {a0 b0 : (⟨Cert.ReferenceIdeal.S50000x64, .f32⟩ : BufTy).Contents (Elt Ideal)} {a1 b1 : (⟨Cert.ReferenceIdeal.S2x800000, .i32⟩ : BufTy).Contents (Elt Ideal)} {a2 b2 : (⟨Cert.ReferenceIdeal.S800000x64, .f32⟩ : BufTy).Contents (Elt Ideal)} {a3 b3 : (⟨Cert.ReferenceIdeal.S192x128, .f32⟩ : BufTy).Contents (Elt Ideal)} {a4 b4 : (⟨Cert.ReferenceIdeal.S128, .f32⟩ : BufTy).Contents (Elt Ideal)} {a5 b5 : (⟨Cert.ReferenceIdeal.S128x128, .f32⟩ : BufTy).Contents (Elt Ideal)} {a6 b6 : (⟨Cert.ReferenceIdeal.S128, .f32⟩ : BufTy).Contents (Elt Ideal)} {a7 b7 : (⟨Cert.ReferenceIdeal.S128x128, .f32⟩ : BufTy).Contents (Elt Ideal)} {a8 b8 : (⟨Cert.ReferenceIdeal.S128, .f32⟩ : BufTy).Contents (Elt Ideal)} {a9 b9 : (⟨Cert.ReferenceIdeal.S128x64, .f32⟩ : BufTy).Contents (Elt Ideal)} {a10 b10 : (⟨Cert.ReferenceIdeal.S64, .f32⟩ : BufTy).Contents (Elt Ideal)} {a11 b11 : (⟨Cert.ReferenceIdeal.S128x128, .f32⟩ : BufTy).Contents (Elt Ideal)} {a12 b12 : (⟨Cert.ReferenceIdeal.S128, .f32⟩ : BufTy).Contents (Elt Ideal)} {a13 b13 : (⟨Cert.ReferenceIdeal.S128x128, .f32⟩ : BufTy).Contents (Elt Ideal)} {a14 b14 : (⟨Cert.ReferenceIdeal.S128, .f32⟩ : BufTy).Contents (Elt Ideal)} {a15 b15 : (⟨Cert.ReferenceIdeal.S128x128, .f32⟩ : BufTy).Contents (Elt Ideal)} {a16 b16 : (⟨Cert.ReferenceIdeal.S128, .f32⟩ : BufTy).Contents (Elt Ideal)} {a17 b17 : (⟨Cert.ReferenceIdeal.S128x64, .f32⟩ : BufTy).Contents (Elt Ideal)} {a18 b18 : (⟨Cert.ReferenceIdeal.S64, .f32⟩ : BufTy).Contents (Elt Ideal)}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) :
    Cert.Results.nodeRes a0 a1 a2 a3 a4 a5 a6 a7 a8 a9 a10 a11 a12 a13 a14 a15 a16 a17 a18 = Cert.Results.nodeRes b0 b1 b2 b3 b4 b5 b6 b7 b8 b9 b10 b11 b12 b13 b14 b15 b16 b17 b18 := by
  subst h0 h1 h2 h3 h4 h5 h6 h7 h8 h9 h10 h11 h12 h13 h14 h15 h16 h17 h18; rfl

/-- The kernel program's run, posted at the two results of its arguments: its run with the final memory named, the
    two result buffers read as the node results and the edge results, each argument read back to the launch memory. -/
theorem kernel_results (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v30)
        = Cert.Results.nodeRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      ∧ r.2.mem ((c.tc : Thread Cert.KernelIdeal.nD Cert.KernelIdeal.τ).loc Cert.KernelIdeal.main_v22)
        = Cert.Results.edgeRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run Cert.KernelIdeal.defs _ _).mono (fun r h c =>
      ⟨(h c Cert.KernelIdeal.main_v30 (by decide)).trans (Cert.KernelIdeal.Whole.node_result m ρ c),
      (h c Cert.KernelIdeal.main_v22 (by decide)).trans (Cert.KernelIdeal.Whole.edge_result m ρ c),
      (h c Cert.KernelIdeal.main_arg0 (by decide)).trans (Cert.KernelIdeal.Gen.W4_main_arg0 m ρ c),
      (h c Cert.KernelIdeal.main_arg1 (by decide)).trans (Cert.KernelIdeal.Gen.W4_main_arg1 m ρ c),
      (h c Cert.KernelIdeal.main_arg2 (by decide)).trans (Cert.KernelIdeal.Gen.W4_main_arg2 m ρ c),
      (h c Cert.KernelIdeal.main_arg3 (by decide)).trans (Cert.KernelIdeal.Gen.W4_main_arg3 m ρ c),
      (h c Cert.KernelIdeal.main_arg4 (by decide)).trans (Cert.KernelIdeal.Gen.W4_main_arg4 m ρ c),
      (h c Cert.KernelIdeal.main_arg5 (by decide)).trans (Cert.KernelIdeal.Gen.W4_main_arg5 m ρ c),
      (h c Cert.KernelIdeal.main_arg6 (by decide)).trans (Cert.KernelIdeal.Gen.W4_main_arg6 m ρ c),
      (h c Cert.KernelIdeal.main_arg7 (by decide)).trans (Cert.KernelIdeal.Gen.W4_main_arg7 m ρ c),
      (h c Cert.KernelIdeal.main_arg8 (by decide)).trans (Cert.KernelIdeal.Gen.W4_main_arg8 m ρ c),
      (h c Cert.KernelIdeal.main_arg9 (by decide)).trans (Cert.KernelIdeal.Gen.W4_main_arg9 m ρ c),
      (h c Cert.KernelIdeal.main_arg10 (by decide)).trans (Cert.KernelIdeal.Gen.W4_main_arg10 m ρ c),
      (h c Cert.KernelIdeal.main_arg11 (by decide)).trans (Cert.KernelIdeal.Gen.W4_main_arg11 m ρ c),
      (h c Cert.KernelIdeal.main_arg12 (by decide)).trans (Cert.KernelIdeal.Gen.W4_main_arg12 m ρ c),
      (h c Cert.KernelIdeal.main_arg13 (by decide)).trans (Cert.KernelIdeal.Gen.W4_main_arg13 m ρ c),
      (h c Cert.KernelIdeal.main_arg14 (by decide)).trans (Cert.KernelIdeal.Gen.W4_main_arg14 m ρ c),
      (h c Cert.KernelIdeal.main_arg15 (by decide)).trans (Cert.KernelIdeal.Gen.W4_main_arg15 m ρ c),
      (h c Cert.KernelIdeal.main_arg16 (by decide)).trans (Cert.KernelIdeal.Gen.W4_main_arg16 m ρ c),
      (h c Cert.KernelIdeal.main_arg17 (by decide)).trans (Cert.KernelIdeal.Gen.W4_main_arg17 m ρ c),
      (h c Cert.KernelIdeal.main_arg18 (by decide)).trans (Cert.KernelIdeal.Gen.W4_main_arg18 m ρ c)⟩)
    (Cert.KernelIdeal.Whole.run_at m ρ)

/-- From memories agreeing on the arguments both programs end with the node results and the edge results of those
    arguments. -/
theorem algebraic : Cert.algebraic_KernelIdeal_ReferenceIdeal := by
  intro m ρ m' ρ' _ hagree
  refine ⟨fun c => Cert.Results.nodeRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.Results.edgeRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), kernel_results m ρ, ?_⟩
  refine (θ_run Cert.ReferenceIdeal.defs _ _).mono (fun r h c => ?_) (Cert.ReferenceIdeal.RefRun.run_results m' ρ')
  obtain ⟨h0, h1, h2, h3, h4, h5, h6, h7, h8, h9, h10, h11, h12, h13, h14, h15, h16, h17, h18⟩ := hagree c
  exact ⟨(h c).1.trans (nodeRes_congr h0 h1 h2 h3 h4 h5 h6 h7 h8 h9 h10 h11 h12 h13 h14 h15 h16 h17 h18),
    (h c).2.1.trans (edgeRes_congr h0 h1 h2 h3 h4 h5 h6 h7 h8 h9 h10), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
